-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S2048x512 : Shape := ⟨2, ![2048, 512]⟩
abbrev S2048 : Shape := ⟨1, ![2048]⟩
abbrev S2048x1 : Shape := ⟨2, ![2048, 1]⟩
abbrev S8192x1 : Shape := ⟨2, ![8192, 1]⟩
abbrev S1x8192 : Shape := ⟨2, ![1, 8192]⟩
abbrev S1x1 : Shape := ⟨2, ![1, 1]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1_S1x1 : S1x1.ShapeCasts S1x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Region0.lean ====
/-
  Region 0 of @main: the row-normalisation kernel on its grid of four points. Each point loads one block of
  2048 rows of the input, divides every row by the larger of its Euclidean norm and a small constant, and stores
  the block (narrowed to bf16) into the output window's staging buffer. The body has one control path, reads its
  input block whole and writes its output block whole, so what it leaves is one pure function of the input block
  (`out0_1`), the same at every point. Everything here is stated at a parameter `V`: the contents of the
  TensorCore's buffers when the region is entered.
-/
import proofs.«162011_j26087631356709_1_alg».proof.Proof.Gen.Kernel.Launch
import proofs.«162011_j26087631356709_1_alg».proof.Proof.Gen.Kernel.Skeleton
import proofs.«162011_j26087631356709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole 2048 × 512 block: the one rectangle the body loads and stores through. -/
abbrev r0_0 : Rect S2048x512 := Rect.unit (s := S2048x512) ![0, 0] S2048x512.size inb_S2048x512_S2048x512_0_0

/-- The output window's staging buffer after the body: its one store, whose payload is the normalised rows of the
    input block. -/
def out0_1 (x0 : Vec F S2048x512 .f32) : Vec F S2048x512 .bf16 :=
  View.canon [⟨r0_0, k0_pay1 (View.ld x0 r0_0)⟩]

/-- The one store covers the buffer. -/
theorem cover0_1 (p0 : Vec F S2048x512 .bf16) (y : S2048x512.Idx) :
    ∃ pc ∈ ([⟨r0_0, p0⟩] : List (View.Piece (Elt F) S2048x512 .bf16)), y ∈ pc.1.set :=
  View.cover_of_tiled [⟨r0_0, p0⟩] S2048x512.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S2048x512 .f32) (harg1 : arg1.IsWhole) (arg2 : Memref sig .tc .vmem S2048x512 .bf16) (harg2 : arg2.IsWhole)
    (x0 : Vec F S2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them; after the body at point `t`
    the input's buffer at its block and the output's at `out0_1` of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1Runs.lean ====
/-
  Region 1 of @main: the pairwise-loss kernel on its 8 × 8 grid. What its two body runs share: each window's block
  at a grid point as a function of the buffers the region finds (`V`); that an input window's staging buffer holds
  its block at every point, fetched there or not (the row windows are fetched once per grid row, the column windows
  at every point; a window that is not fetched has not moved); and the body's one branch — it clears the 1 × 1
  accumulator at the first grid point only.
-/
import proofs.«162011_j26087631356709_1_alg».proof.Proof.Gen.Kernel.Launch
import proofs.«162011_j26087631356709_1_alg».proof.Proof.Gen.Kernel.Skeleton
import proofs.«162011_j26087631356709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch -/

/-- The condition of the body's one `scf.if`: both grid coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the 64 points. -/
theorem hcond1_0 : ∀ t : Fin cfg1.N, cond1_0 (grid1.coords t) ↔ t.val % 64 = 0 :=
  (by decide +kernel : ∀ t : Fin grid1.N, cond1_0 (grid1.coords t) ↔ t.val % 64 = 0)

/-! ## The staging memrefs the pipeline calls the body with -/

/-- The accumulator's one staging buffer, through which its contents are stated. -/
abbrev VO1_4 : View sig .tc .vmem S1x1 .f32 := (Memref.whole cc1_stg4_0 : Memref sig .tc .vmem S1x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

end Cert.Kernel.Fr

end
-- ==== Proof.K.Region1RunA.lean ====
/-
  The loss kernel's body at the FIRST grid point, where its branch is taken: it stores zero into the 1 × 1
  accumulator, loads the four input blocks, and stores the accumulator read back plus the sum of the block's terms.
  The pieces the accumulator's buffer ends with are found by running the body symbolically.
-/
import proofs.«162011_j26087631356709_1_alg».proof.Proof.K.Region1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body with its branch taken, on whole staging memrefs — the inputs' at their contents, the accumulator's at
    anything —, runs to the continuation holding the inputs' as they were and the accumulator's buffer with the
    body's pieces written (last first). -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__loss_kernel i arg2 harg2 arg3 harg3 arg4 harg4 arg5 harg5 arg6 harg6) K } := by
  refine ⟨?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.Region1RunB.lean ====
/-
  The loss kernel's body at every LATER grid point, where its branch is not taken: it loads the four input blocks
  and the 1 × 1 accumulator as the point before left it, and stores the accumulator plus the sum of the block's terms.
-/
import proofs.«162011_j26087631356709_1_alg».proof.Proof.K.Region1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body with its branch not taken, on whole staging memrefs — the inputs' at their contents, the accumulator's
    at its running contents `xo4` —, runs to the continuation holding the inputs' as they were and the accumulator's
    buffer with the body's piece written. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__loss_kernel i arg2 harg2 arg3 harg3 arg4 harg4 arg5 harg5 arg6 harg6) K } := by
  refine ⟨?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.K.Region1.lean ====
/-
  Region 1 of @main: the pairwise-loss kernel on its 8 × 8 grid, the 64 points walked in order. The 1 × 1 output
  block is the same at every point and is written back only after the last one, so its staging buffer is an
  accumulator: the first point clears it and adds its block's sum, every later point adds its block's sum to what the
  point before left (`outsAt1`, by recursion on the point). The two 1024 × 512 input windows read ONE array (the
  normalised rows), the first by the grid's row coordinate and the second by its column coordinate; each holds half
  of that array's read permission. Everything is stated at a parameter `V`: the contents of the TensorCore's
  buffers when the region is entered.
-/
import proofs.«162011_j26087631356709_1_alg».proof.Proof.K.Region1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator's buffer -/

/-- The first point's two stores (the zero, then the sum) cover the 1 × 1 block. -/
theorem cover1_A_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator: its pieces read back. -/
def out1_A_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- A later point's one store covers the 1 × 1 block. -/
theorem cover1_B_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What a later point leaves in the accumulator, over the running contents `xo4`: its piece read back. -/
def out1_B_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo4).1)

/-! ## The accumulation -/

/-- What the accumulator's staging buffer holds after the body at position `n` of the grid walk: the first point's
    contents at 0; at a later point that point's contents over what position `n - 1` left (the buffer is not written
    back in between). -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 64 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- `outsAt1` at the first point. -/
theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- `outsAt1` at a later point: that point's contents over what the point before left. -/
theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t`
    each input's buffer at its block and the accumulator's at `outsAt1`; nothing owed; the two windows on the
    normalised rows hold the left and the right half of that array's permission, every other window its array's whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the accumulator's staging buffer holds what the body left at the point before: the buffer was
    not written back in between (it is written back after the last point only). -/
theorem before1_4_B (c : Dev nD) (t : Fin cfg1.N) (h0 : ¬t.val % 64 = 0) (d) :
    (dat1 V c).before 4 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the point is the first or a later one; at a later
    one the accumulator holds what the point before left; so the case's run applies. The invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt_of_lt_of_eq t.isLt (show cfg1.N = 64 from N_1)
  by_cases h0 : t.val % 64 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Seg0.lean ====
/-
  The run of @main, first part: what the two regions leave in the buffers they write, the proof data of both
  pipelines, and region 0 as a segment of the run.

  Region 0 writes the normalised rows into `main_v0` (its four write-backs folded: `o1`); the host reshapes of the
  labels follow; region 1, entered at those contents, writes the accumulated sum into `main_v3` (`o3`). Between
  two items of @main a core holds every unscoped buffer whole at the contents the valuations `V0 … V4` of the
  conditional frame name, beside its generator register and its dues (none).
-/
import proofs.«162011_j26087631356709_1_alg».proof.Proof.K.Region0
import proofs.«162011_j26087631356709_1_alg».proof.Proof.K.Region1
import proofs.«162011_j26087631356709_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' entries and exits -/

/-- The TensorCore's buffers at launch: what region 0 is entered at. -/
abbrev VR0 : (c : Dev nD) → (b : Ref sig .tc) → Buf (Elt F) ((c : Thread nD τ).loc b) := fun c b => V0 m c b

/-- What region 0 leaves in `main_v0`: its output window's write-backs, folded over the four points. -/
def o1 (c : Dev nD) : Buf (Elt F) ((c : Thread nD τ).loc main_v0) := (dat0 (VR0 m) c).arrAt 1 cfg0.N

/-- The buffers after region 0, -/
abbrev W1 (c : Dev nD) : Valuation τ sig (Elt F) := Function.update (V0 m c) main_v0 (o1 m c)
/-- and after the two reshapes of the labels: what region 1 is entered at. -/
abbrev VR2 : (c : Dev nD) → (b : Ref sig .tc) → Buf (Elt F) ((c : Thread nD τ).loc b) := fun c b => StableHlo.after hostOps1 (W1 m c) b

/-- What region 1 leaves in `main_v3`: the accumulator, written back after the last point. -/
def o3 (c : Dev nD) : Buf (Elt F) ((c : Thread nD τ).loc main_v3) := (dat1 (VR2 m) c).arrAt 4 cfg1.N

/-- What the regions leave, as the conditional frame's unknowns: `main_v0` after region 0, `main_v3` after region 1
    (any other reference: as launched; none is read). -/
def outs : Outs (F := F) := fun _ r c =>
  if h : r = main_v0 then h ▸ o1 m c else if h' : r = main_v3 then h' ▸ o3 m c else m ((c : Thread nD τ).loc r)

theorem outs_v0 (J : ℕ) (c : Dev nD) : outs m J main_v0 c = o1 m c := by unfold outs; rw [dif_pos rfl]
theorem outs_v3 (J : ℕ) (c : Dev nD) : outs m J main_v3 c = o3 m c := by unfold outs; rw [dif_neg (by decide), dif_pos rfl]

theorem V1_eq (c : Dev nD) : V1 m (outs m) c = W1 m c := by
  show Function.update (V0 m c) main_v0 (outs m 1 main_v0 c) = _
  rw [outs_v0]

theorem V2_eq (c : Dev nD) : V2 m (outs m) c = StableHlo.after hostOps1 (W1 m c) := by
  show StableHlo.after hostOps1 (V1 m (outs m) c) = _
  rw [V1_eq]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the input as entered, the output at `o1`. -/
theorem hF0 (c : Dev nD) (w : Fin cfg0.W) : (pdats m 0 c).arrAt w cfg0.N = V1 m (outs m) c (Pipeline.arrRef spec0 w) := by
  match w with
  | ⟨0, _⟩ =>
    exact ((dat0 (VR0 m) c).arrAt_in 0 rfl _).trans ((A_eq0 (VR0 m) c 0).trans (V1_of m (outs m) c main_arg0 (by decide)).symm)
  | ⟨1, _⟩ =>
    show o1 m c = Function.update (V0 m c) (Proc.devRef .tc main_v0 : DevRef τ sig) (outs m 1 main_v0 c) (Proc.devRef .tc main_v0)
    rw [Function.update_self, outs_v0]

/-- Every other buffer is as region 0 found it. -/
theorem hrest0 (c : Dev nD) : ∀ b, b ∉ Finset.univ.image (Pipeline.arrRef spec0) → V1 m (outs m) c b = VR0 m c b :=
  fun b hb => V1_of m (outs m) c b fun hmem => by
    rcases List.mem_singleton.mp hmem with rfl
    exact hb (Finset.mem_image.mpr ⟨1, Finset.mem_univ _, rfl⟩)

set_option backward.isDefEq.respectTransparency.types false in
/-- REGION 0 over the thread state: entered from every unscoped buffer at the launch contents, left at `V1`. Its
    arrays are split out of the unscoped buffers and put back at the exit contents; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Shared1.lean ====
/-
  Region 1's arrays in and out of the core's unscoped buffers, when two windows read ONE array.

  Between regions the core holds every unscoped buffer whole, at the full share. Region 1 has five windows on four
  arrays: the two windows on the normalised rows hold the left and the right half of that array's share, the other
  three their array's whole share. At the region's entry the full share of the shared array is split into its two
  halves, one per window; at its exit the two halves, which hold the same contents, are joined again. The buffers
  that are no window's array pass through untouched, provided the new contents agree with the old ones there.
-/
import proofs.«162011_j26087631356709_1_alg».proof.Proof.K.Region1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One window's array, as a whole buffer -/

/-- A window's array is a whole buffer, so holding it through the window's view is holding the buffer it names,
    at the window's share; the contents are what the new valuation says of that buffer. -/
theorem win_pointsTo1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) (w : Fin cfg1.W) :
    ((cfg1.win w).arr.view.loc (c : Thread nD τ) ↦[(cfg1.win w).arr.view.set]{(dat1 V c).share w} Fw w : sProp 𝕄)
      = (((c : Thread nD τ).loc (Pipeline.arrRef spec1 w)) ↦{(dat1 V c).share w} V' (Pipeline.arrRef spec1 w)) := by
  rw [(arr_whole1 w).set_eq_univ, hF]

/-! ## The four buffers behind the five windows -/

/-- ENTRY: the four buffers behind the windows' arrays, each whole at the full share, are the five windows' arrays:
    the shared array's full share splits into its left and right halves. -/
theorem arrays1_of_arrBufs (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  unfold Pipeline.arrBufs Dat.arrays
  rw [bigSep_W1, bigSep_eq_bigSepL_of_eq [main_v0, main_v1, main_v2, main_v3] (by decide) (by decide),
    win_pointsTo1 V c V' Fw hF 0, win_pointsTo1 V c V' Fw hF 1, win_pointsTo1 V c V' Fw hF 2, win_pointsTo1 V c V' Fw hF 3,
    win_pointsTo1 V c V' Fw hF 4]
  show (iprop((((c : Thread nD τ).loc main_v0) ↦{fullShare} V' main_v0) ∗ (((c : Thread nD τ).loc main_v1) ↦{fullShare} V' main_v1)
        ∗ (((c : Thread nD τ).loc main_v2) ↦{fullShare} V' main_v2) ∗ (((c : Thread nD τ).loc main_v3) ↦{fullShare} V' main_v3)) : sProp 𝕄)
    ⊢ iprop((((c : Thread nD τ).loc main_v0) ↦{fullShare.left} V' main_v0) ∗ (((c : Thread nD τ).loc main_v0) ↦{fullShare.right} V' main_v0)
        ∗ (((c : Thread nD τ).loc main_v1) ↦{fullShare} V' main_v1)
        ∗ (((c : Thread nD τ).loc main_v2) ↦{fullShare} V' main_v2) ∗ (((c : Thread nD τ).loc main_v3) ↦{fullShare} V' main_v3))
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-- EXIT: the five windows' arrays are the four buffers behind them, each whole at the full share: the two halves of
    the shared array's share hold the same contents and join. -/
theorem arrBufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw ⊢ (Pipeline.arrBufs (Ix := Unit) (Name := ℕ) (U := UR sig nD τ) (Lvl := ℕ) spec1 c V' : sProp 𝕄) := by
  unfold Pipeline.arrBufs Dat.arrays
  rw [bigSep_W1, bigSep_eq_bigSepL_of_eq [main_v0, main_v1, main_v2, main_v3] (by decide) (by decide),
    win_pointsTo1 V c V' Fw hF 0, win_pointsTo1 V c V' Fw hF 1, win_pointsTo1 V c V' Fw hF 2, win_pointsTo1 V c V' Fw hF 3,
    win_pointsTo1 V c V' Fw hF 4]
  show (iprop((((c : Thread nD τ).loc main_v0) ↦{fullShare.left} V' main_v0) ∗ (((c : Thread nD τ).loc main_v0) ↦{fullShare.right} V' main_v0)
        ∗ (((c : Thread nD τ).loc main_v1) ↦{fullShare} V' main_v1)
        ∗ (((c : Thread nD τ).loc main_v2) ↦{fullShare} V' main_v2) ∗ (((c : Thread nD τ).loc main_v3) ↦{fullShare} V' main_v3)) : sProp 𝕄)
    ⊢ iprop((((c : Thread nD τ).loc main_v0) ↦{fullShare} V' main_v0) ∗ (((c : Thread nD τ).loc main_v1) ↦{fullShare} V' main_v1)
        ∗ (((c : Thread nD τ).loc main_v2) ↦{fullShare} V' main_v2) ∗ (((c : Thread nD τ).loc main_v3) ↦{fullShare} V' main_v3))
  iintro ⟨H0l, H0r, H1, H2, H3⟩
  ihave H0 := (pointsTo_share (PosShare.mem_left_op_right fullShare)).2 $$ [H0l H0r]
  · isplitl [H0l] <;> iassumption
  isplitl [H0]; · iexact H0
  isplitl [H1]; · iexact H1
  isplitl [H2]; · iexact H2
  iexact H3

/-! ## The buffers that are no window's array -/

/-- Two valuations that agree off the windows' arrays give the same unscoped rest. -/
theorem unscopedRest1_congr (c : Dev nD) (V₁ V₂ : (b : Ref sig .tc) → Buf (Elt F) ((c : Thread nD τ).loc b))
    (h : ∀ b, b ∉ Finset.univ.image (Pipeline.arrRef spec1) → V₂ b = V₁ b) :
    (Pipeline.unscopedRest (Ix := Unit) (Name := ℕ) (U := UR sig nD τ) (Lvl := ℕ) spec1 c V₁ : sProp 𝕄)
      = Pipeline.unscopedRest spec1 c V₂ := by
  unfold Pipeline.unscopedRest
  exact bigSep_congr fun b hb => by rw [h b (Finset.mem_sdiff.mp hb).2]

/-! ## The region's entry and exit -/

/-- ENTRY: the core's unscoped buffers at the contents the region finds are region 1's arrays at the proof data's
    entry contents, and the unscoped rest. -/
theorem arrays1_of_unscopedBufs (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) winFacts₀1.arr_unscoped c (V c)]
  exact sep_mono (arrays1_of_arrBufs V c (V c) _ fun w => (show (dat1 V c).arrAt w 0 = (dat1 V c).A w from rfl).trans (A_eq1 V c w)) .rfl

/-- EXIT: region 1's arrays at contents `Fw`, beside the unscoped rest at the old contents, are the core's unscoped
    buffers at any valuation that reads `Fw` at the windows' arrays and the old contents elsewhere. -/
theorem unscopedBufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) (hrest : ∀ b, b ∉ Finset.univ.image (Pipeline.arrRef spec1) → V' b = V c b) :
    iprop((dat1 V c).arrays Fw ∗ Pipeline.unscopedRest (Ix := Unit) (Name := ℕ) (U := UR sig nD τ) (Lvl := ℕ) spec1 c (V c)) ⊢ (unscopedBufs c V' : sProp 𝕄) := by
  rw [Pipeline.unscopedBufs_split₀ cfgs (1 : Fin 2) winFacts₀1.arr_unscoped c V', unscopedRest1_congr c (V c) V' hrest]
  exact sep_mono (arrBufs_of_arrays1 V c V' Fw hF) .rfl

end Cert.Kernel.Fr

end
-- ==== Proof.K.Seg1.lean ====
/-
  The run of @main, second part: region 1 (the pairwise-loss kernel) as a segment of the run. It is entered with every
  unscoped buffer at the contents the label reshapes leave and left with `main_v3` at the accumulated sum. Its two
  row windows read the one array of normalised rows, each under half of that array's permission: the halves are dealt
  at the entry and joined again at the exit.
-/
import proofs.«162011_j26087631356709_1_alg».proof.Proof.K.Seg0
import proofs.«162011_j26087631356709_1_alg».proof.Proof.K.Shared1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Region 1's entry contents are the conditional frame's valuation before it. -/
theorem VR2_eq (c : Dev nD) (b : Ref sig .tc) : V2 m (outs m) c b = VR2 m c b := congrFun (V2_eq m c) _

/-- An input array of region 1 reaches its exit as entered. -/
theorem V3_in (c : Dev nD) (b : Ref sig .tc) (hb : b ∉ ([main_v3] : List (Ref sig .tc))) : VR2 m c b = V3 m (outs m) c b :=
  ((V3_of m (outs m) c b hb).trans (VR2_eq m c b)).symm

/-- After region 1 each of its arrays holds what the pipeline leaves: the inputs as entered, the output at `o3`. -/
theorem hF1 (c : Dev nD) (w : Fin cfg1.W) : (pdats m 1 c).arrAt w cfg1.N = V3 m (outs m) c (Pipeline.arrRef spec1 w) := by
  match w with
  | ⟨0, _⟩ => exact ((dat1 (VR2 m) c).arrAt_in 0 rfl _).trans ((A_eq1 (VR2 m) c 0).trans (V3_in m c main_v0 (by decide)))
  | ⟨1, _⟩ => exact ((dat1 (VR2 m) c).arrAt_in 1 rfl _).trans ((A_eq1 (VR2 m) c 1).trans (V3_in m c main_v0 (by decide)))
  | ⟨2, _⟩ => exact ((dat1 (VR2 m) c).arrAt_in 2 rfl _).trans ((A_eq1 (VR2 m) c 2).trans (V3_in m c main_v1 (by decide)))
  | ⟨3, _⟩ => exact ((dat1 (VR2 m) c).arrAt_in 3 rfl _).trans ((A_eq1 (VR2 m) c 3).trans (V3_in m c main_v2 (by decide)))
  | ⟨4, _⟩ =>
    show o3 m c = Function.update (V2 m (outs m) c) (Proc.devRef .tc main_v3 : DevRef τ sig) (outs m 3 main_v3 c) (Proc.devRef .tc main_v3)
    rw [Function.update_self, outs_v3]

/-- Every other buffer is as region 1 found it. -/
theorem hrest1 (c : Dev nD) : ∀ b, b ∉ Finset.univ.image (Pipeline.arrRef spec1) → V3 m (outs m) c b = VR2 m c b :=
  fun b hb => (V3_in m c b fun hmem => by
    rcases List.mem_singleton.mp hmem with rfl
    exact hb (Finset.mem_image.mpr ⟨4, Finset.mem_univ _, rfl⟩)).symm

set_option backward.isDefEq.respectTransparency.types false in
/-- REGION 1 over the thread state: entered from every unscoped buffer at `V2`, left at `V3`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none, V2_eq]
    have hsplit := arrays1_of_unscopedBufs (VR2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (VR2 m) c (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Fr

end
-- ==== Proof.K.Frame.lean ====
/-
  The frame of @main: the two regions' segments handed to the conditional frame. Every weakly fair execution
  terminates, nothing faults, and the argument arrays end as launched.
-/
import proofs.«162011_j26087631356709_1_alg».proof.Proof.K.Seg1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)

end Cert.Kernel.Fr

end
-- ==== Proof.KI.Region0.lean ====
/-
  Region 0 of @main: the row-normalisation kernel on its grid of four points. Each point loads one block of
  2048 rows of the input, divides every row by the larger of its Euclidean norm and a small constant, and stores
  the block (narrowed to bf16) into the output window's staging buffer. The body has one control path, reads its
  input block whole and writes its output block whole, so what it leaves is one pure function of the input block
  (`out0_1`), the same at every point. Everything here is stated at a parameter `V`: the contents of the
  TensorCore's buffers when the region is entered.
-/
import proofs.«162011_j26087631356709_1_alg».proof.Proof.Gen.KernelIdeal.Launch
import proofs.«162011_j26087631356709_1_alg».proof.Proof.Gen.KernelIdeal.Skeleton
import proofs.«162011_j26087631356709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole 2048 × 512 block: the one rectangle the body loads and stores through. -/
abbrev r0_0 : Rect S2048x512 := Rect.unit (s := S2048x512) ![0, 0] S2048x512.size inb_S2048x512_S2048x512_0_0

/-- The output window's staging buffer after the body: its one store, whose payload is the normalised rows of the
    input block. -/
def out0_1 (x0 : Vec F S2048x512 .f32) : Vec F S2048x512 .bf16 :=
  View.canon [⟨r0_0, k0_pay1 (View.ld x0 r0_0)⟩]

/-- The one store covers the buffer. -/
theorem cover0_1 (p0 : Vec F S2048x512 .bf16) (y : S2048x512.Idx) :
    ∃ pc ∈ ([⟨r0_0, p0⟩] : List (View.Piece (Elt F) S2048x512 .bf16)), y ∈ pc.1.set :=
  View.cover_of_tiled [⟨r0_0, p0⟩] S2048x512.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S2048x512 .f32) (harg1 : arg1.IsWhole) (arg2 : Memref sig .tc .vmem S2048x512 .bf16) (harg2 : arg2.IsWhole)
    (x0 : Vec F S2048x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them; after the body at point `t`
    the input's buffer at its block and the output's at `out0_1` of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1Runs.lean ====
/-
  Region 1 of @main: the pairwise-loss kernel on its 8 × 8 grid. What its two body runs share: each window's block
  at a grid point as a function of the buffers the region finds (`V`); that an input window's staging buffer holds
  its block at every point, fetched there or not (the row windows are fetched once per grid row, the column windows
  at every point; a window that is not fetched has not moved); and the body's one branch — it clears the 1 × 1
  accumulator at the first grid point only.
-/
import proofs.«162011_j26087631356709_1_alg».proof.Proof.Gen.KernelIdeal.Launch
import proofs.«162011_j26087631356709_1_alg».proof.Proof.Gen.KernelIdeal.Skeleton
import proofs.«162011_j26087631356709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch -/

/-- The condition of the body's one `scf.if`: both grid coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the 64 points. -/
theorem hcond1_0 : ∀ t : Fin cfg1.N, cond1_0 (grid1.coords t) ↔ t.val % 64 = 0 :=
  (by decide +kernel : ∀ t : Fin grid1.N, cond1_0 (grid1.coords t) ↔ t.val % 64 = 0)

/-! ## The staging memrefs the pipeline calls the body with -/

/-- The accumulator's one staging buffer, through which its contents are stated. -/
abbrev VO1_4 : View sig .tc .vmem S1x1 .f32 := (Memref.whole cc1_stg4_0 : Memref sig .tc .vmem S1x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

end Cert.KernelIdeal.Fr

end
-- ==== Proof.KI.Region1RunA.lean ====
/-
  The loss kernel's body at the FIRST grid point, where its branch is taken: it stores zero into the 1 × 1
  accumulator, loads the four input blocks, and stores the accumulator read back plus the sum of the block's terms.
  The pieces the accumulator's buffer ends with are found by running the body symbolically.
-/
import proofs.«162011_j26087631356709_1_alg».proof.Proof.KI.Region1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body with its branch taken, on whole staging memrefs — the inputs' at their contents, the accumulator's at
    anything —, runs to the continuation holding the inputs' as they were and the accumulator's buffer with the
    body's pieces written (last first). -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__loss_kernel i arg2 harg2 arg3 harg3 arg4 harg4 arg5 harg5 arg6 harg6) K } := by
  refine ⟨?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.Region1RunB.lean ====
/-
  The loss kernel's body at every LATER grid point, where its branch is not taken: it loads the four input blocks
  and the 1 × 1 accumulator as the point before left it, and stores the accumulator plus the sum of the block's terms.
-/
import proofs.«162011_j26087631356709_1_alg».proof.Proof.KI.Region1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body with its branch not taken, on whole staging memrefs — the inputs' at their contents, the accumulator's
    at its running contents `xo4` —, runs to the continuation holding the inputs' as they were and the accumulator's
    buffer with the body's piece written. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__loss_kernel i arg2 harg2 arg3 harg3 arg4 harg4 arg5 harg5 arg6 harg6) K } := by
  refine ⟨?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KI.Region1.lean ====
/-
  Region 1 of @main: the pairwise-loss kernel on its 8 × 8 grid, the 64 points walked in order. The 1 × 1 output
  block is the same at every point and is written back only after the last one, so its staging buffer is an
  accumulator: the first point clears it and adds its block's sum, every later point adds its block's sum to what the
  point before left (`outsAt1`, by recursion on the point). The two 1024 × 512 input windows read ONE array (the
  normalised rows), the first by the grid's row coordinate and the second by its column coordinate; each holds half
  of that array's read permission. Everything is stated at a parameter `V`: the contents of the TensorCore's
  buffers when the region is entered.
-/
import proofs.«162011_j26087631356709_1_alg».proof.Proof.KI.Region1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator's buffer -/

/-- The first point's two stores (the zero, then the sum) cover the 1 × 1 block. -/
theorem cover1_A_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator: its pieces read back. -/
def out1_A_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : cond1_0 i)
    (x0 : Vec F S1024x512 .bf16) (x1 : Vec F S1024x512 .bf16) (x2 : Vec F S1024x1 .i32) (x3 : Vec F S1x1024 .i32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- A later point's one store covers the 1 × 1 block. -/
theorem cover1_B_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) (y : S1x1.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1.size (by sl_kernel_rfl) y

/-- What a later point leaves in the accumulator, over the running contents `xo4`: its piece read back. -/
def out1_B_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬cond1_0 i)
    (x0 : Vec F S1024x512 .bf16) (x1 : Vec F S1024x512 .bf16) (x2 : Vec F S1024x1 .i32) (x3 : Vec F S1x1024 .i32) (xo4 : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo4).1)

/-! ## The accumulation -/

/-- What the accumulator's staging buffer holds after the body at position `n` of the grid walk: the first point's
    contents at 0; at a later point that point's contents over what position `n - 1` left (the buffer is not written
    back in between). -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 64 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- `outsAt1` at the first point. -/
theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- `outsAt1` at a later point: that point's contents over what the point before left. -/
theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t`
    each input's buffer at its block and the accumulator's at `outsAt1`; nothing owed; the two windows on the
    normalised rows hold the left and the right half of that array's permission, every other window its array's whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the accumulator's staging buffer holds what the body left at the point before: the buffer was
    not written back in between (it is written back after the last point only). -/
theorem before1_4_B (c : Dev nD) (t : Fin cfg1.N) (h0 : ¬t.val % 64 = 0) (d) :
    (dat1 V c).before 4 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the point is the first or a later one; at a later
    one the accumulator holds what the point before left; so the case's run applies. The invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt_of_lt_of_eq t.isLt (show cfg1.N = 64 from N_1)
  by_cases h0 : t.val % 64 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Seg0.lean ====
/-
  The run of @main, first part: what the two regions leave in the buffers they write, the proof data of both
  pipelines, and region 0 as a segment of the run.

  Region 0 writes the normalised rows into `main_v0` (its four write-backs folded: `o1`); the host reshapes of the
  labels follow; region 1, entered at those contents, writes the accumulated sum into `main_v3` (`o3`). Between
  two items of @main a core holds every unscoped buffer whole at the contents the valuations `V0 … V4` of the
  conditional frame name, beside its generator register and its dues (none).
-/
import proofs.«162011_j26087631356709_1_alg».proof.Proof.KI.Region0
import proofs.«162011_j26087631356709_1_alg».proof.Proof.KI.Region1
import proofs.«162011_j26087631356709_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' entries and exits -/

/-- The TensorCore's buffers at launch: what region 0 is entered at. -/
abbrev VR0 : (c : Dev nD) → (b : Ref sig .tc) → Buf (Elt F) ((c : Thread nD τ).loc b) := fun c b => V0 m c b

/-- What region 0 leaves in `main_v0`: its output window's write-backs, folded over the four points. -/
def o1 (c : Dev nD) : Buf (Elt F) ((c : Thread nD τ).loc main_v0) := (dat0 (VR0 m) c).arrAt 1 cfg0.N

/-- The buffers after region 0, -/
abbrev W1 (c : Dev nD) : Valuation τ sig (Elt F) := Function.update (V0 m c) main_v0 (o1 m c)
/-- and after the two reshapes of the labels: what region 1 is entered at. -/
abbrev VR2 : (c : Dev nD) → (b : Ref sig .tc) → Buf (Elt F) ((c : Thread nD τ).loc b) := fun c b => StableHlo.after hostOps1 (W1 m c) b

/-- What region 1 leaves in `main_v3`: the accumulator, written back after the last point. -/
def o3 (c : Dev nD) : Buf (Elt F) ((c : Thread nD τ).loc main_v3) := (dat1 (VR2 m) c).arrAt 4 cfg1.N

/-- What the regions leave, as the conditional frame's unknowns: `main_v0` after region 0, `main_v3` after region 1
    (any other reference: as launched; none is read). -/
def outs : Outs (F := F) := fun _ r c =>
  if h : r = main_v0 then h ▸ o1 m c else if h' : r = main_v3 then h' ▸ o3 m c else m ((c : Thread nD τ).loc r)

theorem outs_v0 (J : ℕ) (c : Dev nD) : outs m J main_v0 c = o1 m c := by unfold outs; rw [dif_pos rfl]
theorem outs_v3 (J : ℕ) (c : Dev nD) : outs m J main_v3 c = o3 m c := by unfold outs; rw [dif_neg (by decide), dif_pos rfl]

theorem V1_eq (c : Dev nD) : V1 m (outs m) c = W1 m c := by
  show Function.update (V0 m c) main_v0 (outs m 1 main_v0 c) = _
  rw [outs_v0]

theorem V2_eq (c : Dev nD) : V2 m (outs m) c = StableHlo.after hostOps1 (W1 m c) := by
  show StableHlo.after hostOps1 (V1 m (outs m) c) = _
  rw [V1_eq]

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the input as entered, the output at `o1`. -/
theorem hF0 (c : Dev nD) (w : Fin cfg0.W) : (pdats m 0 c).arrAt w cfg0.N = V1 m (outs m) c (Pipeline.arrRef spec0 w) := by
  match w with
  | ⟨0, _⟩ =>
    exact ((dat0 (VR0 m) c).arrAt_in 0 rfl _).trans ((A_eq0 (VR0 m) c 0).trans (V1_of m (outs m) c main_arg0 (by decide)).symm)
  | ⟨1, _⟩ =>
    show o1 m c = Function.update (V0 m c) (Proc.devRef .tc main_v0 : DevRef τ sig) (outs m 1 main_v0 c) (Proc.devRef .tc main_v0)
    rw [Function.update_self, outs_v0]

/-- Every other buffer is as region 0 found it. -/
theorem hrest0 (c : Dev nD) : ∀ b, b ∉ Finset.univ.image (Pipeline.arrRef spec0) → V1 m (outs m) c b = VR0 m c b :=
  fun b hb => V1_of m (outs m) c b fun hmem => by
    rcases List.mem_singleton.mp hmem with rfl
    exact hb (Finset.mem_image.mpr ⟨1, Finset.mem_univ _, rfl⟩)

set_option backward.isDefEq.respectTransparency.types false in
/-- REGION 0 over the thread state: entered from every unscoped buffer at the launch contents, left at `V1`. Its
    arrays are split out of the unscoped buffers and put back at the exit contents; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Shared1.lean ====
/-
  Region 1's arrays in and out of the core's unscoped buffers, when two windows read ONE array.

  Between regions the core holds every unscoped buffer whole, at the full share. Region 1 has five windows on four
  arrays: the two windows on the normalised rows hold the left and the right half of that array's share, the other
  three their array's whole share. At the region's entry the full share of the shared array is split into its two
  halves, one per window; at its exit the two halves, which hold the same contents, are joined again. The buffers
  that are no window's array pass through untouched, provided the new contents agree with the old ones there.
-/
import proofs.«162011_j26087631356709_1_alg».proof.Proof.KI.Region1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One window's array, as a whole buffer -/

/-- A window's array is a whole buffer, so holding it through the window's view is holding the buffer it names,
    at the window's share; the contents are what the new valuation says of that buffer. -/
theorem win_pointsTo1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) (w : Fin cfg1.W) :
    ((cfg1.win w).arr.view.loc (c : Thread nD τ) ↦[(cfg1.win w).arr.view.set]{(dat1 V c).share w} Fw w : sProp 𝕄)
      = (((c : Thread nD τ).loc (Pipeline.arrRef spec1 w)) ↦{(dat1 V c).share w} V' (Pipeline.arrRef spec1 w)) := by
  rw [(arr_whole1 w).set_eq_univ, hF]

/-! ## The four buffers behind the five windows -/

/-- ENTRY: the four buffers behind the windows' arrays, each whole at the full share, are the five windows' arrays:
    the shared array's full share splits into its left and right halves. -/
theorem arrays1_of_arrBufs (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  unfold Pipeline.arrBufs Dat.arrays
  rw [bigSep_W1, bigSep_eq_bigSepL_of_eq [main_v0, main_v1, main_v2, main_v3] (by decide) (by decide),
    win_pointsTo1 V c V' Fw hF 0, win_pointsTo1 V c V' Fw hF 1, win_pointsTo1 V c V' Fw hF 2, win_pointsTo1 V c V' Fw hF 3,
    win_pointsTo1 V c V' Fw hF 4]
  show (iprop((((c : Thread nD τ).loc main_v0) ↦{fullShare} V' main_v0) ∗ (((c : Thread nD τ).loc main_v1) ↦{fullShare} V' main_v1)
        ∗ (((c : Thread nD τ).loc main_v2) ↦{fullShare} V' main_v2) ∗ (((c : Thread nD τ).loc main_v3) ↦{fullShare} V' main_v3)) : sProp 𝕄)
    ⊢ iprop((((c : Thread nD τ).loc main_v0) ↦{fullShare.left} V' main_v0) ∗ (((c : Thread nD τ).loc main_v0) ↦{fullShare.right} V' main_v0)
        ∗ (((c : Thread nD τ).loc main_v1) ↦{fullShare} V' main_v1)
        ∗ (((c : Thread nD τ).loc main_v2) ↦{fullShare} V' main_v2) ∗ (((c : Thread nD τ).loc main_v3) ↦{fullShare} V' main_v3))
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-- EXIT: the five windows' arrays are the four buffers behind them, each whole at the full share: the two halves of
    the shared array's share hold the same contents and join. -/
theorem arrBufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw ⊢ (Pipeline.arrBufs (Ix := Unit) (Name := ℕ) (U := UR sig nD τ) (Lvl := ℕ) spec1 c V' : sProp 𝕄) := by
  unfold Pipeline.arrBufs Dat.arrays
  rw [bigSep_W1, bigSep_eq_bigSepL_of_eq [main_v0, main_v1, main_v2, main_v3] (by decide) (by decide),
    win_pointsTo1 V c V' Fw hF 0, win_pointsTo1 V c V' Fw hF 1, win_pointsTo1 V c V' Fw hF 2, win_pointsTo1 V c V' Fw hF 3,
    win_pointsTo1 V c V' Fw hF 4]
  show (iprop((((c : Thread nD τ).loc main_v0) ↦{fullShare.left} V' main_v0) ∗ (((c : Thread nD τ).loc main_v0) ↦{fullShare.right} V' main_v0)
        ∗ (((c : Thread nD τ).loc main_v1) ↦{fullShare} V' main_v1)
        ∗ (((c : Thread nD τ).loc main_v2) ↦{fullShare} V' main_v2) ∗ (((c : Thread nD τ).loc main_v3) ↦{fullShare} V' main_v3)) : sProp 𝕄)
    ⊢ iprop((((c : Thread nD τ).loc main_v0) ↦{fullShare} V' main_v0) ∗ (((c : Thread nD τ).loc main_v1) ↦{fullShare} V' main_v1)
        ∗ (((c : Thread nD τ).loc main_v2) ↦{fullShare} V' main_v2) ∗ (((c : Thread nD τ).loc main_v3) ↦{fullShare} V' main_v3))
  iintro ⟨H0l, H0r, H1, H2, H3⟩
  ihave H0 := (pointsTo_share (PosShare.mem_left_op_right fullShare)).2 $$ [H0l H0r]
  · isplitl [H0l] <;> iassumption
  isplitl [H0]; · iexact H0
  isplitl [H1]; · iexact H1
  isplitl [H2]; · iexact H2
  iexact H3

/-! ## The buffers that are no window's array -/

/-- Two valuations that agree off the windows' arrays give the same unscoped rest. -/
theorem unscopedRest1_congr (c : Dev nD) (V₁ V₂ : (b : Ref sig .tc) → Buf (Elt F) ((c : Thread nD τ).loc b))
    (h : ∀ b, b ∉ Finset.univ.image (Pipeline.arrRef spec1) → V₂ b = V₁ b) :
    (Pipeline.unscopedRest (Ix := Unit) (Name := ℕ) (U := UR sig nD τ) (Lvl := ℕ) spec1 c V₁ : sProp 𝕄)
      = Pipeline.unscopedRest spec1 c V₂ := by
  unfold Pipeline.unscopedRest
  exact bigSep_congr fun b hb => by rw [h b (Finset.mem_sdiff.mp hb).2]

/-! ## The region's entry and exit -/

/-- ENTRY: the core's unscoped buffers at the contents the region finds are region 1's arrays at the proof data's
    entry contents, and the unscoped rest. -/
theorem arrays1_of_unscopedBufs (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) winFacts₀1.arr_unscoped c (V c)]
  exact sep_mono (arrays1_of_arrBufs V c (V c) _ fun w => (show (dat1 V c).arrAt w 0 = (dat1 V c).A w from rfl).trans (A_eq1 V c w)) .rfl

/-- EXIT: region 1's arrays at contents `Fw`, beside the unscoped rest at the old contents, are the core's unscoped
    buffers at any valuation that reads `Fw` at the windows' arrays and the old contents elsewhere. -/
theorem unscopedBufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) (hrest : ∀ b, b ∉ Finset.univ.image (Pipeline.arrRef spec1) → V' b = V c b) :
    iprop((dat1 V c).arrays Fw ∗ Pipeline.unscopedRest (Ix := Unit) (Name := ℕ) (U := UR sig nD τ) (Lvl := ℕ) spec1 c (V c)) ⊢ (unscopedBufs c V' : sProp 𝕄) := by
  rw [Pipeline.unscopedBufs_split₀ cfgs (1 : Fin 2) winFacts₀1.arr_unscoped c V', unscopedRest1_congr c (V c) V' hrest]
  exact sep_mono (arrBufs_of_arrays1 V c V' Fw hF) .rfl

end Cert.KernelIdeal.Fr

end
-- ==== Proof.KI.Seg1.lean ====
/-
  The run of @main, second part: region 1 (the pairwise-loss kernel) as a segment of the run. It is entered with every
  unscoped buffer at the contents the label reshapes leave and left with `main_v3` at the accumulated sum. Its two
  row windows read the one array of normalised rows, each under half of that array's permission: the halves are dealt
  at the entry and joined again at the exit.
-/
import proofs.«162011_j26087631356709_1_alg».proof.Proof.KI.Seg0
import proofs.«162011_j26087631356709_1_alg».proof.Proof.KI.Shared1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Region 1's entry contents are the conditional frame's valuation before it. -/
theorem VR2_eq (c : Dev nD) (b : Ref sig .tc) : V2 m (outs m) c b = VR2 m c b := congrFun (V2_eq m c) _

/-- An input array of region 1 reaches its exit as entered. -/
theorem V3_in (c : Dev nD) (b : Ref sig .tc) (hb : b ∉ ([main_v3] : List (Ref sig .tc))) : VR2 m c b = V3 m (outs m) c b :=
  ((V3_of m (outs m) c b hb).trans (VR2_eq m c b)).symm

/-- After region 1 each of its arrays holds what the pipeline leaves: the inputs as entered, the output at `o3`. -/
theorem hF1 (c : Dev nD) (w : Fin cfg1.W) : (pdats m 1 c).arrAt w cfg1.N = V3 m (outs m) c (Pipeline.arrRef spec1 w) := by
  match w with
  | ⟨0, _⟩ => exact ((dat1 (VR2 m) c).arrAt_in 0 rfl _).trans ((A_eq1 (VR2 m) c 0).trans (V3_in m c main_v0 (by decide)))
  | ⟨1, _⟩ => exact ((dat1 (VR2 m) c).arrAt_in 1 rfl _).trans ((A_eq1 (VR2 m) c 1).trans (V3_in m c main_v0 (by decide)))
  | ⟨2, _⟩ => exact ((dat1 (VR2 m) c).arrAt_in 2 rfl _).trans ((A_eq1 (VR2 m) c 2).trans (V3_in m c main_v1 (by decide)))
  | ⟨3, _⟩ => exact ((dat1 (VR2 m) c).arrAt_in 3 rfl _).trans ((A_eq1 (VR2 m) c 3).trans (V3_in m c main_v2 (by decide)))
  | ⟨4, _⟩ =>
    show o3 m c = Function.update (V2 m (outs m) c) (Proc.devRef .tc main_v3 : DevRef τ sig) (outs m 3 main_v3 c) (Proc.devRef .tc main_v3)
    rw [Function.update_self, outs_v3]

/-- Every other buffer is as region 1 found it. -/
theorem hrest1 (c : Dev nD) : ∀ b, b ∉ Finset.univ.image (Pipeline.arrRef spec1) → V3 m (outs m) c b = VR2 m c b :=
  fun b hb => (V3_in m c b fun hmem => by
    rcases List.mem_singleton.mp hmem with rfl
    exact hb (Finset.mem_image.mpr ⟨4, Finset.mem_univ _, rfl⟩)).symm

set_option backward.isDefEq.respectTransparency.types false in
/-- REGION 1 over the thread state: entered from every unscoped buffer at `V2`, left at `V3`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none, V2_eq]
    have hsplit := arrays1_of_unscopedBufs (VR2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (VR2 m) c (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Fr

end
-- ==== Proof.KI.Frame.lean ====
/-
  The frame of @main: the two regions' segments handed to the conditional frame. Every weakly fair execution
  terminates, nothing faults, and the argument arrays end as launched.
-/
import proofs.«162011_j26087631356709_1_alg».proof.Proof.KI.Seg1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)

end Cert.KernelIdeal.Fr

end
-- ==== Proof.KI.RunVal.lean ====
/-
  The run of @main with its result: as the frame, and the result buffer ends at what the last valuation names — the
  accumulated sum, reshaped to a scalar and divided by the number of pairs.
-/
import proofs.«162011_j26087631356709_1_alg».proof.Proof.KI.Seg1
import proofs.«162011_j26087631356709_1_alg».proof.Proof.KI.RegionsVal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result: `main_v5` ends at the last valuation's contents, the arguments as launched. -/
theorem run_main : θ_run defs (onTc (τ := τ) (main (F := F))) ⟨m, fun _ => 0, ρ⟩ (fun r => ∀ c : Dev nD,
      r.2.mem ((c.tc : Thread nD τ).loc main_v5) = V4 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)

end Cert.KernelIdeal.Fr

end
-- ==== Proof.Spec.lean ====
/-
  The mathematics both programs compute, over the extended reals, index by index.

  From an 8192 × 512 array `x` and 8192 integer labels:
  * every row of `x` is divided by the larger of its Euclidean norm and a small positive constant (`unitRows`);
  * for a pair of rows (r, c) the similarity is the inner product of the two scaled rows (`sim`);
  * the pair's term (`pairTerm`) is (1 - d) · (1 - s)² + d · max(s - ½, 0)², with s the similarity and d = 1 when
    the two labels differ and 0 when they agree, and the whole is multiplied by 0 on the diagonal r = c and by 1 off it;
  * the result is the sum of all 8192² terms divided by 8192 · 8191 (`loss`).
  One program adds the terms in one sweep; the other adds them 1024 × 1024 block by block over an 8 × 8 grid of
  blocks and accumulates the 64 block sums. Addition of extended reals is commutative and associative, so the two
  groupings agree (`total_eq_blocks`).

  The float literals are kept as their bit patterns (the same words appear on both sides); the two indicator
  values are the conversions of the one-bit comparison results, written as the real numbers 0 and 1.
-/
import Idealize.ShloMosaic.PureOps.Ideal
import Idealize.ShloMosaic.Lib.ValueIdx

noncomputable section

namespace Cert.Spec

open Idealize.ShloMosaic

/-- The small constant the row norm is floored at (the f32 nearest 1e-12). -/
abbrev eps : EReal := Ideal.ofBits .f32 0x2B8CBCCC#32
/-- 1, ½ and 0 as the programs spell them. -/
abbrev one : EReal := Ideal.ofBits .f32 0x3F800000#32
abbrev half : EReal := Ideal.ofBits .f32 0x3F000000#32
abbrev zero : EReal := Ideal.ofBits .f32 0x00000000#32
/-- The number of ordered pairs of distinct rows, 8192 · 8191, as the f32 both programs divide by. -/
abbrev pairs : EReal := Ideal.ofBits .f32 0x4C7FF800#32

/-- The floored Euclidean norm of row `r`. -/
def rowNorm (x : Fin 8192 → Fin 512 → EReal) (r : Fin 8192) : EReal :=
  max (Ideal.sqrt (∑ k : Fin 512, x r k * x r k)) eps

/-- The rows of `x` scaled to unit length (or by 1/eps, for a row shorter than eps). -/
def unitRows (x : Fin 8192 → Fin 512 → EReal) (r : Fin 8192) (k : Fin 512) : EReal :=
  Ideal.div (x r k) (rowNorm x r)

/-- The inner product of rows `r` and `c` of `e`. -/
def sim (e : Fin 8192 → Fin 512 → EReal) (r c : Fin 8192) : EReal :=
  ∑ k : Fin 512, e r k * e c k

/-- 1 when the labels of rows `r` and `c` differ, 0 when they agree. -/
def differ (lab : Fin 8192 → BitVec 32) (r c : Fin 8192) : EReal :=
  if lab r ≠ lab c then ((1 : ℝ) : EReal) else ((0 : ℝ) : EReal)

/-- 1 on the diagonal, 0 off it. -/
def onDiag (r c : Fin 8192) : EReal :=
  if r = c then ((1 : ℝ) : EReal) else ((0 : ℝ) : EReal)

/-- The term of the ordered pair (r, c). -/
def pairTerm (e : Fin 8192 → Fin 512 → EReal) (lab : Fin 8192 → BitVec 32) (r c : Fin 8192) : EReal :=
  ((one - differ lab r c) * ((one - sim e r c) * (one - sim e r c))
    + differ lab r c * (max (sim e r c - half) zero * max (sim e r c - half) zero))
  * (one - onDiag r c)

/-- The sum of all the terms, in one sweep. -/
def total (e : Fin 8192 → Fin 512 → EReal) (lab : Fin 8192 → BitVec 32) : EReal :=
  ∑ r : Fin 8192, ∑ c : Fin 8192, pairTerm e lab r c

/-- Row 1024·i + p, for a block index i < 8 and a row p < 1024 inside the block. -/
def blockRow (i : Fin 8) (p : Fin 1024) : Fin 8192 := ⟨1024 * i.val + p.val, by omega⟩

/-- The sum of the terms of the 1024 × 1024 block (i, j). -/
def blockSum (e : Fin 8192 → Fin 512 → EReal) (lab : Fin 8192 → BitVec 32) (i j : Fin 8) : EReal :=
  ∑ p : Fin 1024, ∑ q : Fin 1024, pairTerm e lab (blockRow i p) (blockRow j q)

/-- The sum of the block sums of the first `n` grid points, the grid 8 × 8 walked row by row (point t is the
    block (t / 8, t % 8)). -/
def accBlocks (e : Fin 8192 → Fin 512 → EReal) (lab : Fin 8192 → BitVec 32) (n : ℕ) : EReal :=
  ∑ t ∈ Finset.range n, if h : t < 64 then blockSum e lab ⟨t / 8, by omega⟩ ⟨t % 8, by omega⟩ else 0

/-- The result: the sum of the terms over the scaled rows, divided by the number of pairs. -/
def loss (x : Fin 8192 → Fin 512 → EReal) (lab : Fin 8192 → BitVec 32) : EReal :=
  Ideal.div (total (unitRows x) lab) pairs

end Cert.Spec

end
-- ==== Proof.KI.Value0.lean ====
/-
  What region 0 leaves in its output array, as one function of the input array.

  Region 0 walks a grid of four points; point t loads rows 2048 t … 2048 t + 2047 of the 8192 × 512 input, and
  stores, for every row p and lane q of that block, the element divided by the larger of the row's Euclidean norm
  (the square root of the sum of the 512 squares of the row) and a small positive constant. Over the extended
  reals the narrowing to the 16-bit format is the identity, so the stored value at (p, q) is exactly
  `Cert.Spec.unitRows` of the input at row 2048 t + p, column q (`pay_apply`, `row_eq`). Every point writes its
  block back to block row t of the output (`flushed0_eq`), and row r of the output lies in the block of point
  r / 2048 (`cover0`); so after the four points the output array is the normalised rows of the input, index by
  index (`final0`).

  The auxiliary statements live in the sub-namespace `R0`; `final0` is the result.

  Two layout readings the body needs are proved first: a length-a vector viewed as an a × 1 column reads its
  operand at the row, and an a × 1 column broadcast to a × b reads the column at the row.
-/
import proofs.«162011_j26087631356709_1_alg».proof.Proof.KI.Region0
import proofs.«162011_j26087631356709_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

namespace R0

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a 2048 × 512 block at row `p`: the sum over the 512 lanes. -/
theorem rowSum_apply (src : FVec Ideal S2048x512 .f32) (hφ : FKind.Formats .f32)
    (hacc : (0x00000000#32 : BitVec 32) = 0x00000000#32) (p : Fin 2048) :
    multiReduction (F := Ideal) .add [1] S2048 src 0x00000000#32 reduces_S2048x512_S2048 hφ hacc (ix1 p)
      = ∑ k : Fin 512, src (ix2 p k) := by
  refine (Ideal.multiReduction_add_single src 0x00000000#32 reduces_S2048x512_S2048 hφ hacc (ix1 p)).trans ?_
  exact Finset.sum_congr rfl fun k _ => congrArg src
    (funext fun a => Fin.ext (match a with | ⟨0, _⟩ => rfl | ⟨1, _⟩ => rfl))

/-- The body's payload at row `p`, lane `q` of the block: the element divided by the larger of the row's Euclidean
    norm and the small constant. -/
theorem pay_apply (x0 : Vec Ideal S2048x512 .f32) (p : Fin 2048) (q : Fin 512) :
    k0_pay1 (F := Ideal) x0 (ix2 p q)
      = Ideal.div (x0 (ix2 p q)) (max (Ideal.sqrt (∑ k : Fin 512, x0 (ix2 p k) * x0 (ix2 p k))) Cert.Spec.eps) := by
  unfold k0_pay1
  dsimp only
  rw [truncf_apply, divf_apply, broadcastTo_a1_ab_apply, maximumf_apply, broadcast_apply]
  show Ideal.div _ (max (Ideal.sqrt (shapeCast S2048x1 _ shapeCasts_S2048_S2048x1 (ix2 p (0 : Fin 1)))) _) = _
  rw [shapeCast_a_a1_apply, rowSum_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The grid has four points. -/
theorem N0 : cfg0.N = 4 := by decide

/-- The printed index maps, decided once over the grid: at point `t` both windows are on block row `t`, block
    column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t` is rows `2048 t … 2048 t + 2047` of the argument. -/
theorem iblk_read (c : Dev nD) (t : Fin cfg0.N) (y : S2048x512.Idx) (j : S8192x512.Idx)
    (h0 : (j 0).val = 2048 * t.val + (y 0).val) (h1 : (j 1).val = (y 1).val) :
    iblk0 (F := Ideal) V c 0 t y = V c main_arg0 j := by
  obtain ⟨e0, e1, -, -⟩ := idx_facts t
  unfold iblk0
  rw [View.read_apply]
  show V c main_arg0 _ = V c main_arg0 j
  congr 1
  funext a
  apply Fin.ext
  match a with
  | ⟨0, _⟩ => show win0_0.index t (0 : Fin 2) * 2048 + 1 * (y 0).val = (j 0).val; rw [e0, h0]; omega
  | ⟨1, _⟩ => show win0_0.index t (1 : Fin 2) * 512 + 1 * (y 1).val = (j 1).val; rw [e1, h1]; omega

/-- The argument array as a function of row and column. -/
abbrev argX (c : Dev nD) : Fin 8192 → Fin 512 → EReal := fun r k => V c main_arg0 (ix2 r k)

/-- The normalised rows, as an array over the output's indices. -/
abbrev G0 (c : Dev nD) : S8192x512.Idx → EReal := fun j => Cert.Spec.unitRows (argX V c) (j 0) (j 1)

/-- The payload of point `t`'s input block at `y` is the normalised argument at row `2048 t + y₀`, column `y₁`. -/
theorem row_eq (c : Dev nD) (t : Fin cfg0.N) (y : S2048x512.Idx) (j : S8192x512.Idx)
    (h0 : (j 0).val = 2048 * t.val + (y 0).val) (h1 : (j 1).val = (y 1).val) :
    k0_pay1 (F := Ideal) (iblk0 V c 0 t) y = G0 V c j := by
  obtain ⟨p, q, rfl⟩ : ∃ (p : Fin 2048) (q : Fin 512), y = ix2 p q := ⟨y 0, y 1, eq_ix2 y⟩
  obtain ⟨r, s, rfl⟩ : ∃ (r : Fin 8192) (s : Fin 512), j = ix2 r s := ⟨j 0, j 1, eq_ix2 j⟩
  have h0' : r.val = 2048 * t.val + p.val := h0
  obtain rfl : s = q := Fin.ext h1
  show k0_pay1 (F := Ideal) (iblk0 V c 0 t) (ix2 p s) = Cert.Spec.unitRows (argX V c) r s
  have hs : ∀ k : Fin 512, iblk0 (F := Ideal) V c 0 t (ix2 p k) = V c main_arg0 (ix2 r k) :=
    fun k => iblk_read V c t (ix2 p k) (ix2 r k) h0' rfl
  rw [pay_apply, hs s, Finset.sum_congr rfl fun k _ => by rw [hs k]]
  rfl

/-- What point `t` writes back is block `t` of the normalised rows of the argument. -/
theorem flushed0_eq (c : Dev nD) (t : Fin cfg0.N) :
    (dat0 (F := Ideal) V c).flushed 1 t = ((cfg0.win 1).blk t).view.read (Elt Ideal) (G0 V c) := by
  show (cfg0.win 1).cut (grid0.coords t) ((dat0 (F := Ideal) V c).after 1 t) = _
  rw [after0_1]
  unfold out0_1
  rw [View.canon_unit_zero hz]
  simp only [View.ld_unit_zero (S := S2048x512) hz]
  obtain ⟨-, -, e2, e3⟩ := idx_facts t
  funext y
  show k0_pay1 (F := Ideal) (iblk0 V c 0 t) y = G0 V c (((cfg0.win 1).blk t).view.emb y)
  refine row_eq V c t y _ ?_ ?_
  · show win0_1.index t (0 : Fin 2) * 2048 + 1 * (y 0).val = 2048 * t.val + (y 0).val
    rw [e2]; omega
  · show win0_1.index t (1 : Fin 2) * 512 + 1 * (y 1).val = (y 1).val
    rw [e3]; omega

/-- An index of the array is in point `t`'s block iff each coordinate is in the block's range on its axis. -/
theorem mem_blk0 (t : Fin cfg0.N) (i : S8192x512.Idx) :
    i ∈ ((cfg0.win 1).blk t).view.set ↔ ∀ a : Fin 2, win0_1.index t a * S2048x512.size a ≤ (i a).val ∧ (i a).val < win0_1.index t a * S2048x512.size a + S2048x512.size a := by
  show i ∈ ((View.whole main_v0).slice (win0_1.rect t)).set ↔ _
  rw [View.set_slice_whole, Rect.mem_set_unit]
  exact Iff.rfl

/-- Every row of the array is in the block of the point `row / 2048`. -/
theorem cover0 (i : S8192x512.Idx) :
    ∃ t : Fin cfg0.N, (cfg0.win 1).flush t = true ∧ i ∈ ((cfg0.win 1).blk t).view.set := by
  have hi0 : (i 0).val < 8192 := idx2_lt0 i
  have hi1 : (i 1).val < 512 := idx2_lt1 i
  have hN : cfg0.N = 4 := N0
  let t : Fin cfg0.N := ⟨(i 0).val / 2048, by rw [hN]; omega⟩
  obtain ⟨-, -, e2, e3⟩ := idx_facts t
  have ht : t.val = (i 0).val / 2048 := rfl
  refine ⟨t, flush0_1 t, ?_⟩
  rw [mem_blk0]
  intro a
  match a with
  | ⟨0, _⟩ => show win0_1.index t (0 : Fin 2) * 2048 ≤ (i 0).val ∧ (i 0).val < win0_1.index t (0 : Fin 2) * 2048 + 2048; rw [e2, ht]; omega
  | ⟨1, _⟩ => show win0_1.index t (1 : Fin 2) * 512 ≤ (i 1).val ∧ (i 1).val < win0_1.index t (1 : Fin 2) * 512 + 512; rw [e3]; omega

end R0

variable (V : (c : Dev nD) → (b : Ref sig .tc) → Buf (Elt Ideal) ((c : Thread nD τ).loc b))

/-- The output array after region 0: the normalised rows of the input array, index by index. -/
theorem final0 (c : Dev nD) :
    (dat0 (F := Ideal) V c).arrAt 1 cfg0.N
      = fun j => Cert.Spec.unitRows (fun r k => V c main_arg0 (ix2 r k)) (j 0) (j 1) :=
  (dat0 (F := Ideal) V c).arrAt_eq_of_cover 1 (R0.G0 V c) (fun t _ => R0.flushed0_eq V c t) R0.cover0

end Cert.KernelIdeal.Val

end
-- ==== Proof.KI.Pay.lean ====
/-
  The intermediate values of the pairwise-loss kernel, read at one index of a 1024 × 1024 block, over the
  extended reals.

  For a block (i₀, i₁) of the 8 × 8 grid, a row p and a column q inside the block:
  * the product of the two 1024 × 512 operand blocks, the second transposed, is the inner product of row p of the
    first with row q of the second (`pay3_apply`);
  * the diagonal indicator compares the global row number 1024·i₀ + p with the global column number 1024·i₁ + q;
    both are below 8192, so the 32-bit words that carry them do not wrap and the comparison of the words is the
    comparison of the numbers (`pay4_apply`);
  * the label indicator is 1 where the row's label differs from the column's (`pay5_apply`);
  * the remaining two values are pointwise in the ones above (`pay6_apply`, `pay7_apply`).
  The two indicators are the conversions of a one-bit comparison result widened to 32 bits: the word 0 or 1, read
  as the real number 0 or 1.
-/
import proofs.«162011_j26087631356709_1_alg».proof.Proof.Gen.KernelIdeal.Skeleton
import proofs.«162011_j26087631356709_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The product of the two operand blocks -/

/-- On the first operand's row axis the product reads the output's row. -/
theorem lhs_pay3_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- On the first operand's column axis it reads the summation index. -/
theorem lhs_pay3_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- On the second operand's row axis the product reads the output's column. -/
theorem rhs_pay3_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- On the second operand's column axis it reads the summation index. -/
theorem rhs_pay3_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the product is the inner product of row p of the first block and row q of the second. -/
theorem pay3_apply (x0 x1 : Vec Ideal S1024x512 .bf16) (p q : Fin 1024) :
    k1_pay3 (F := Ideal) x0 x1 (ix2 p q) = ∑ k : Fin 512, x0 (ix2 p k) * x1 (ix2 q k) := by
  unfold k1_pay3
  rw [shapeCast_self, shapeCast_self]
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_pay3_0 _ _
    | ⟨1, _⟩ => exact (lhs_pay3_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_pay3_0 _ _
    | ⟨1, _⟩ => exact (rhs_pay3_1 _ _).trans hk)
  rw [el, er]

/-! ## Words that carry small numbers -/

/-- A one-bit comparison result widened to 32 bits and converted to a float is the real number 1 or 0. -/
theorem sitofp_extui_ofBool (b : Bool) :
    FloatOps.sitofp (F := Ideal) .f32 ((BitVec.ofBool b).setWidth 32) = if b = true then ((1 : ℝ) : EReal) else ((0 : ℝ) : EReal) := by
  cases b
  · show ((((BitVec.ofBool false).setWidth 32).toInt : ℝ) : EReal) = _
    rw [show ((BitVec.ofBool false).setWidth 32).toInt = 0 by decide]
    simp
  · show ((((BitVec.ofBool true).setWidth 32).toInt : ℝ) : EReal) = _
    rw [show ((BitVec.ofBool true).setWidth 32).toInt = 1 by decide]
    simp

/-- Two numbers below 2³² are equal exactly when their 32-bit words are. -/
theorem word_beq {a b : ℕ} (ha : a < 2 ^ 32) (hb : b < 2 ^ 32) :
    (BitVec.ofNat 32 a == BitVec.ofNat 32 b) = decide (a = b) := by
  by_cases h : a = b
  · subst h; simp
  · have hne : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    simp [h, hne]

/-- 1024·n + p computed on 32-bit words is the word of the number 1024·n + p. -/
theorem word_affine (n p : ℕ) :
    IntOp.addi (Scalar.muli (BitVec.ofNat 32 n) 1024#32) (BitVec.ofNat 32 p) = BitVec.ofNat 32 (1024 * n + p) := by
  show BitVec.ofNat 32 n * BitVec.ofNat 32 1024 + BitVec.ofNat 32 p = _
  rw [← BitVec.ofNat_mul, ← BitVec.ofNat_add, Nat.mul_comm]

/-! ## The diagonal indicator -/

/-- The global row number of row p, spread along the columns. -/
theorem rowWord_apply (n : ℕ) (p q : Fin 1024) :
    broadcastTo S1024x1024 (addi (broadcast S1024x1 (Scalar.muli (BitVec.ofNat 32 n) 1024#32)) (iota .tc S1024x1 32 [0] iota_S1024x1_d0_w32)) broadcasts_S1024x1_S1024x1024 (ix2 p q)
      = BitVec.ofNat 32 (1024 * n + p.val) := by
  rw [broadcastTo_apply _ _ (ix2 p q) (ix2 p (0 : Fin 1)) (fun a => by match a with | ⟨0, _⟩ => rfl | ⟨1, _⟩ => rfl)]
  show IntOp.addi (Scalar.muli (BitVec.ofNat 32 n) 1024#32) (iota .tc S1024x1 32 [0] iota_S1024x1_d0_w32 (ix2 p (0 : Fin 1))) = _
  rw [iota_single_apply]
  exact word_affine n p.val

/-- The global column number of column q, spread along the rows. -/
theorem colWord_apply (n : ℕ) (p q : Fin 1024) :
    broadcastTo S1024x1024 (addi (broadcast S1x1024 (Scalar.muli (BitVec.ofNat 32 n) 1024#32)) (iota .tc S1x1024 32 [1] iota_S1x1024_d1_w32)) broadcasts_S1x1024_S1024x1024 (ix2 p q)
      = BitVec.ofNat 32 (1024 * n + q.val) := by
  rw [broadcastTo_apply _ _ (ix2 p q) (ix2 (0 : Fin 1) q) (fun a => by match a with | ⟨0, _⟩ => rfl | ⟨1, _⟩ => rfl)]
  show IntOp.addi (Scalar.muli (BitVec.ofNat 32 n) 1024#32) (iota .tc S1x1024 32 [1] iota_S1x1024_d1_w32 (ix2 (0 : Fin 1) q)) = _
  rw [iota_single_apply]
  exact word_affine n q.val

/-- Entry (p, q) of the diagonal indicator of block (i₀, i₁) is 1 exactly when row 1024·i₀ + p is column 1024·i₁ + q. -/
theorem pay4_apply (i : grid1.Coords) (p q : Fin 1024) :
    k1_pay4 (F := Ideal) i (ix2 p q)
      = if 1024 * (i 0).val + p.val = 1024 * (i 1).val + q.val then ((1 : ℝ) : EReal) else ((0 : ℝ) : EReal) := by
  have hi0 : (i 0).val < 8 := (i 0).isLt
  have hi1 : (i 1).val < 8 := (i 1).isLt
  have hp : p.val < 1024 := p.isLt
  have hq : q.val < 1024 := q.isLt
  unfold k1_pay4
  show FloatOps.sitofp (F := Ideal) .f32 ((IntOp.cmpi .eq
      (broadcastTo S1024x1024 (addi (broadcast S1024x1 (Scalar.muli (BitVec.ofNat 32 (i 0).val) 1024#32)) (iota .tc S1024x1 32 [0] iota_S1024x1_d0_w32)) broadcasts_S1024x1_S1024x1024 (ix2 p q))
      (broadcastTo S1024x1024 (addi (broadcast S1x1024 (Scalar.muli (BitVec.ofNat 32 (i 1).val) 1024#32)) (iota .tc S1x1024 32 [1] iota_S1x1024_d1_w32)) broadcasts_S1x1024_S1024x1024 (ix2 p q))).setWidth 32) = _
  rw [rowWord_apply, colWord_apply]
  show FloatOps.sitofp (F := Ideal) .f32 ((BitVec.ofBool (BitVec.ofNat 32 (1024 * (i 0).val + p.val) == BitVec.ofNat 32 (1024 * (i 1).val + q.val))).setWidth 32) = _
  rw [sitofp_extui_ofBool, word_beq (by omega) (by omega)]
  simp only [decide_eq_true_eq]

/-! ## The label indicator -/

/-- Entry (p, q) of the label indicator is 1 exactly when the label of row p differs from the label of column q. -/
theorem pay5_apply (x2 : Vec Ideal S1024x1 .i32) (x3 : Vec Ideal S1x1024 .i32) (p q : Fin 1024) :
    k1_pay5 (F := Ideal) x2 x3 (ix2 p q)
      = if x2 (ix2 p 0) ≠ x3 (ix2 0 q) then ((1 : ℝ) : EReal) else ((0 : ℝ) : EReal) := by
  unfold k1_pay5
  rw [shapeCast_self, shapeCast_self]
  show FloatOps.sitofp (F := Ideal) .f32 ((IntOp.cmpi .ne
      (broadcastTo S1024x1024 x2 broadcasts_S1024x1_S1024x1024 (ix2 p q))
      (broadcastTo S1024x1024 x3 broadcasts_S1x1024_S1024x1024 (ix2 p q))).setWidth 32) = _
  rw [broadcastTo_apply x2 _ (ix2 p q) (ix2 p (0 : Fin 1)) (fun a => by match a with | ⟨0, _⟩ => rfl | ⟨1, _⟩ => rfl),
    broadcastTo_apply x3 _ (ix2 p q) (ix2 (0 : Fin 1) q) (fun a => by match a with | ⟨0, _⟩ => rfl | ⟨1, _⟩ => rfl)]
  show FloatOps.sitofp (F := Ideal) .f32 ((BitVec.ofBool (x2 (ix2 p 0) != x3 (ix2 0 q))).setWidth 32) = _
  rw [sitofp_extui_ofBool]
  simp only [bne_iff_ne]

/-! ## The two pointwise values -/

/-- The same-label term's factor: (1 - d)·(1 - s)², with d the label indicator and s the product's entry. -/
theorem pay6_apply (x0 x1 : Vec Ideal S1024x512 .bf16) (x2 : Vec Ideal S1024x1 .i32) (x3 : Vec Ideal S1x1024 .i32) (p q : Fin 1024) :
    k1_pay6 (F := Ideal) x0 x1 x2 x3 (ix2 p q)
      = (Cert.Spec.one - k1_pay5 (F := Ideal) x2 x3 (ix2 p q))
        * ((Cert.Spec.one - k1_pay3 (F := Ideal) x0 x1 (ix2 p q)) * (Cert.Spec.one - k1_pay3 (F := Ideal) x0 x1 (ix2 p q))) := by
  unfold k1_pay6
  simp only [mulf_apply, subf_apply, broadcast_apply]
  rfl

/-- The product's entry less one half. -/
theorem pay7_apply (x0 x1 : Vec Ideal S1024x512 .bf16) (p q : Fin 1024) :
    k1_pay7 (F := Ideal) x0 x1 (ix2 p q) = k1_pay3 (F := Ideal) x0 x1 (ix2 p q) - Cert.Spec.half := by
  unfold k1_pay7
  simp only [subf_apply, broadcast_apply]
  rfl

end Cert.KernelIdeal.Val

end
-- ==== Proof.KI.PaySum.lean ====
/-
  The loss kernel's stored value at one grid point, over the extended reals.

  The kernel holds a 1 × 1 accumulator. At each grid point it forms, entry by entry over a 1024 × 1024 block,
  the value (a + b · max(c, 0)²) · (1 - d) from four block-sized arrays a, b, c, d, adds all 1024² entries up
  (a reduction of the block, viewed as a 1 × 1024 × 1024 array, over its two long axes), and adds that total to
  the accumulator. Read at the ideal values the reduction is the plain sum over the block's index set, and that
  index set is the product of the two coordinate ranges, so the stored value is the old accumulator plus one
  double sum over (p, q).
-/
import proofs.«162011_j26087631356709_1_alg».proof.Proof.Gen.KernelIdeal.Skeleton
import proofs.«162011_j26087631356709_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx

/-- The index set of a 1 × 1024 × 1024 array is the product of its two long coordinate ranges: the leading
    coordinate can only be 0. -/
def blockIdxEquiv : S1x1024x1024.Idx ≃ Fin 1024 × Fin 1024 where
  toFun i := (i 1, i 2)
  invFun p := ix3 (0 : Fin 1) p.1 p.2
  left_inv i := by
    funext a
    match a with
    | ⟨0, _⟩ =>
      have h : (i 0).val < 1 := (i 0).isLt
      exact Fin.ext (show 0 = (i 0).val by omega)
    | ⟨1, _⟩ => rfl
    | ⟨2, _⟩ => rfl
  right_inv _ := rfl

/-- So a sum over that index set is the double sum over the two long coordinates. -/
theorem sum_block {M : Type*} [AddCommMonoid M] (f : S1x1024x1024.Idx → M) :
    ∑ i, f i = ∑ p : Fin 1024, ∑ q : Fin 1024, f (ix3 (0 : Fin 1) p q) := by
  rw [← Equiv.sum_comp blockIdxEquiv.symm f, Fintype.sum_prod_type]
  rfl

/-- The reduction of a 1 × 1024 × 1024 array over its two long axes, recast to 1 × 1 × 1 and read at its one
    entry, is the double sum of the array's entries: every axis of the reduced shape has extent one, so the
    reduction is the total over the source whatever index it is read at. -/
theorem extract_total (v : FVec Ideal S1x1024x1024 .f32) :
    extractAt ![0, 0, 0]
        (shapeCast S1x1x1
          (multiReduction (F := Ideal) .add [1, 2] S1 v 0x00000000#32 reduces_S1x1024x1024_S1 (.inl rfl) rfl)
          shapeCasts_S1_S1x1x1)
        inpos_S1x1x1_p0_0_0
      = ∑ p : Fin 1024, ∑ q : Fin 1024, v (ix3 (0 : Fin 1) p q) := by
  unfold extractAt shapeCast
  exact (Ideal.multiReduction_add_total v _ reduces_S1x1024x1024_S1
    (fun b => match b with | ⟨0, _⟩ => rfl) _ _ _).trans (sum_block v)

/-- The value the loss kernel stores at a grid point: the accumulator it loaded plus the sum, over the block's
    1024 × 1024 entries, of (a + b · max(c, 0)²) · (1 - d). -/
theorem pay1_eq (v22 v31 v37 v39 : FVec Ideal S1024x1024 .f32) (v48 : Vec Ideal S1x1 .f32) (y : S1x1.Idx) :
    k1_pay1 (F := Ideal) v22 v31 v37 v39 v48 y
      = v48 y + ∑ p : Fin 1024, ∑ q : Fin 1024,
          (v37 (ix2 p q) + v31 (ix2 p q) * (max (v39 (ix2 p q)) Cert.Spec.zero * max (v39 (ix2 p q)) Cert.Spec.zero))
            * (Cert.Spec.one - v22 (ix2 p q)) := by
  unfold k1_pay1
  simp only [addf_apply, broadcast_apply, shapeCast_self]
  rw [extract_total]
  refine congrArg (v48 y + ·) (Finset.sum_congr rfl fun p _ => Finset.sum_congr rfl fun q _ => ?_)
  rw [shapeCast_ab_1ab_apply]
  rfl

end Cert.KernelIdeal.Val

end
-- ==== Proof.SpecBlocks.lean ====
/-
  The regrouping of the one sum of all pair terms into the 64 block sums.

  A row index r < 8192 is the pair (r / 1024, r % 1024) of a block index and a row inside the block; this is a
  bijection between the rows and the pairs, whose inverse is `blockRow`. A sum over the rows is therefore a
  double sum over block index and row inside the block. Applying this to both the row and the column of the
  one sweep and exchanging the two middle sums gives the sum over (i, j) of the block sums. A grid point
  t < 64 is likewise the pair (t / 8, t % 8), so the sum over (i, j) is the sum over the grid points walked
  row by row. Only commutativity and associativity of the addition of extended reals are used.
-/
import proofs.«162011_j26087631356709_1_alg».proof.Proof.Spec
import Mathlib.Data.Fintype.BigOperators
import Mathlib.Algebra.BigOperators.Group.Finset.Sigma

noncomputable section

namespace Cert.Spec

open Idealize.ShloMosaic

/-- The rows as pairs (block index, row inside the block). -/
def rowEquiv : Fin 8 × Fin 1024 ≃ Fin 8192 where
  toFun ip := blockRow ip.1 ip.2
  invFun r := (⟨r.val / 1024, by omega⟩, ⟨r.val % 1024, by omega⟩)
  left_inv := by
    rintro ⟨i, p⟩
    refine Prod.ext (Fin.ext ?_) (Fin.ext ?_)
    · show (1024 * i.val + p.val) / 1024 = i.val
      omega
    · show (1024 * i.val + p.val) % 1024 = p.val
      omega
  right_inv := by
    intro r
    refine Fin.ext ?_
    show 1024 * (r.val / 1024) + r.val % 1024 = r.val
    omega

/-- The grid points as pairs (block row, block column), the grid walked row by row. -/
def gridEquiv : Fin 8 × Fin 8 ≃ Fin 64 where
  toFun ij := ⟨8 * ij.1.val + ij.2.val, by omega⟩
  invFun t := (⟨t.val / 8, by omega⟩, ⟨t.val % 8, by omega⟩)
  left_inv := by
    rintro ⟨i, j⟩
    refine Prod.ext (Fin.ext ?_) (Fin.ext ?_)
    · show (8 * i.val + j.val) / 8 = i.val
      omega
    · show (8 * i.val + j.val) % 8 = j.val
      omega
  right_inv := by
    intro t
    refine Fin.ext ?_
    show 8 * (t.val / 8) + t.val % 8 = t.val
    omega

/-- A sum over the rows is a double sum over block index and row inside the block. -/
theorem sum_rows (f : Fin 8192 → EReal) :
    ∑ r : Fin 8192, f r = ∑ i : Fin 8, ∑ p : Fin 1024, f (blockRow i p) := by
  rw [← Equiv.sum_comp rowEquiv f]
  exact Fintype.sum_prod_type (fun ip : Fin 8 × Fin 1024 => f (rowEquiv ip))

/-- A sum over the grid points is a double sum over block row and block column. -/
theorem sum_grid (g : Fin 64 → EReal) :
    ∑ t : Fin 64, g t = ∑ i : Fin 8, ∑ j : Fin 8, g (gridEquiv (i, j)) := by
  rw [← Equiv.sum_comp gridEquiv g]
  exact Fintype.sum_prod_type (fun ij : Fin 8 × Fin 8 => g (gridEquiv ij))

theorem accBlocks_zero (e : Fin 8192 → Fin 512 → EReal) (lab : Fin 8192 → BitVec 32) :
    accBlocks e lab 0 = 0 := by
  unfold accBlocks
  exact Finset.sum_range_zero _

theorem accBlocks_succ (e : Fin 8192 → Fin 512 → EReal) (lab : Fin 8192 → BitVec 32) (n : ℕ) (h : n < 64) :
    accBlocks e lab (n + 1)
      = accBlocks e lab n + blockSum e lab ⟨n / 8, by omega⟩ ⟨n % 8, by omega⟩ := by
  unfold accBlocks
  rw [Finset.sum_range_succ, dif_pos h]

/-- The one sweep as the sum over (i, j) of the block sums. -/
theorem total_eq_sum_blockSum (e : Fin 8192 → Fin 512 → EReal) (lab : Fin 8192 → BitVec 32) :
    total e lab = ∑ i : Fin 8, ∑ j : Fin 8, blockSum e lab i j := by
  unfold total blockSum
  rw [sum_rows]
  refine Finset.sum_congr rfl (fun i _ => ?_)
  -- inside block row i: split the column, then bring the block column outside the row
  have hsplit : ∀ p : Fin 1024,
      (∑ c : Fin 8192, pairTerm e lab (blockRow i p) c)
        = ∑ j : Fin 8, ∑ q : Fin 1024, pairTerm e lab (blockRow i p) (blockRow j q) :=
    fun p => sum_rows (fun c => pairTerm e lab (blockRow i p) c)
  rw [Finset.sum_congr rfl (fun p _ => hsplit p)]
  exact Finset.sum_comm

/-- The 64 accumulated block sums as the sum over (i, j) of the block sums. -/
theorem accBlocks_full (e : Fin 8192 → Fin 512 → EReal) (lab : Fin 8192 → BitVec 32) :
    accBlocks e lab 64 = ∑ i : Fin 8, ∑ j : Fin 8, blockSum e lab i j := by
  unfold accBlocks
  rw [← Fin.sum_univ_eq_sum_range
    (fun t => if h : t < 64 then blockSum e lab ⟨t / 8, by omega⟩ ⟨t % 8, by omega⟩ else 0) 64]
  rw [sum_grid]
  refine Finset.sum_congr rfl (fun i _ => Finset.sum_congr rfl (fun j _ => ?_))
  have hlt : (gridEquiv (i, j)).val < 64 := (gridEquiv (i, j)).isLt
  rw [dif_pos hlt]
  have hi : (⟨(gridEquiv (i, j)).val / 8, by omega⟩ : Fin 8) = i := by
    refine Fin.ext ?_
    show (8 * i.val + j.val) / 8 = i.val
    omega
  have hj : (⟨(gridEquiv (i, j)).val % 8, by omega⟩ : Fin 8) = j := by
    refine Fin.ext ?_
    show (8 * i.val + j.val) % 8 = j.val
    omega
  rw [hi, hj]

theorem total_eq_blocks (e : Fin 8192 → Fin 512 → EReal) (lab : Fin 8192 → BitVec 32) :
    total e lab = accBlocks e lab 64 := by
  rw [total_eq_sum_blockSum, accBlocks_full]

end Cert.Spec

end
-- ==== Proof.KI.Value1.lean ====
/-
  Region 1 of @main read as a value, at the ideal instance: what the pairwise-loss kernel leaves in its 1 × 1
  result. At each of the 64 grid points the body adds, onto the accumulator, the sum over its 1024 × 1024 block of
  the pair terms (1 - d)(1 - s)² + d · max(s - ½, 0)², off the diagonal, of the rows 1024 · (t / 8) + p and
  1024 · (t % 8) + q; the first point starts from the zero it has just stored. So after point n the accumulator
  holds the sum of the first n + 1 block sums, and the result array — written back once, after the last point —
  holds the sum of all 64.

  In order: what each of the body's two cases leaves in the accumulator, as the body's arithmetic over the loaded
  blocks (for any float values); each loaded block as rows of the array it is cut from; one entry of a block as
  the pair term of its two global rows, and one point's contribution as a block sum; the accumulation by induction
  on the point; the result array.
-/
import proofs.«162011_j26087631356709_1_alg».proof.Proof.KI.Region1
import proofs.«162011_j26087631356709_1_alg».proof.Proof.KI.Pay
import proofs.«162011_j26087631356709_1_alg».proof.Proof.KI.PaySum
import proofs.«162011_j26087631356709_1_alg».proof.Proof.SpecBlocks
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.ShloMosaic.Tactic Idealize.SL.Sem
open Idealize.ShloMosaic.Pipeline (Dat)
open Cert.KernelIdeal Cert.KernelIdeal.Gen Idealize.ShloMosaic.ValueIdx

variable {F : FTy → Type} [FloatOps F]

/-- The zero offsets of a whole-buffer access, however they are spelt. -/
theorem hz2 : (![0, 0] : Fin 2 → Nat) = fun _ => 0 := funext fun a => by fin_cases a <;> rfl

/-! ## What each case's stores leave: the body's arithmetic over the loaded blocks -/

/-- A later point: the one covering store leaves the accumulator's contents plus the block's sum, the loads
    reading the whole staging buffers. -/
theorem out1_B_4_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : ¬Fr.cond1_0 i)
    (x0 : Vec F S1024x512 .bf16) (x1 : Vec F S1024x512 .bf16) (x2 : Vec F S1024x1 .i32) (x3 : Vec F S1x1024 .i32) (xo4 : Vec F S1x1 .f32) :
    Fr.out1_B_4 c i arg2 harg2 arg3 harg3 arg4 harg4 arg5 harg5 arg6 harg6 hc0 x0 x1 x2 x3 xo4
      = k1_pay1 (k1_pay4 i) (k1_pay5 x2 x3) (k1_pay6 x0 x1 x2 x3) (k1_pay7 x0 x1) xo4 := by
  unfold Fr.out1_B_4
  rw [View.read_writes_eq_canon _ _ _ (Fr.cover1_B_4 c i arg2 harg2 arg3 harg3 arg4 harg4 arg5 harg5 arg6 harg6 hc0 x0 x1 x2 x3 xo4)]
  unfold Fr.kernelRun1_B
  dsimp only
  sl_unfold_words
  rw [View.canon_unit_zero (S := S1x1) hz2]
  simp only [View.readAt_eq_ld, harg2.read_unread, harg3.read_unread, harg4.read_unread, harg5.read_unread, harg6.read_unread,
    View.ld_unit_zero (S := S1024x512) hz2, View.ld_unit_zero (S := S1024x1) hz2, View.ld_unit_zero (S := S1x1024) hz2,
    View.ld_unit_zero (S := S1x1) hz2]

/-- The first point: the zero is stored, read back, and the block's sum added to it; the later store covers. -/
theorem out1_A_4_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (hc0 : Fr.cond1_0 i)
    (x0 : Vec F S1024x512 .bf16) (x1 : Vec F S1024x512 .bf16) (x2 : Vec F S1024x1 .i32) (x3 : Vec F S1x1024 .i32) :
    Fr.out1_A_4 c i arg2 harg2 arg3 harg3 arg4 harg4 arg5 harg5 arg6 harg6 hc0 x0 x1 x2 x3
      = k1_pay1 (k1_pay4 i) (k1_pay5 x2 x3) (k1_pay6 x0 x1 x2 x3) (k1_pay7 x0 x1) k1_pay2 := by
  unfold Fr.out1_A_4
  rw [View.read_writes_eq_canon _ _ _ (Fr.cover1_A_4 c i arg2 harg2 arg3 harg3 arg4 harg4 arg5 harg5 arg6 harg6 hc0 x0 x1 x2 x3)]
  unfold Fr.kernelRun1_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1024x512) hz2, View.ld_unit_zero (S := S1024x1) hz2, View.ld_unit_zero (S := S1x1024) hz2]

/-! ## The blocks a point reads -/

variable (V : (c : Dev nD) → (b : Ref sig .tc) → Buf (Elt F) ((c : Thread nD τ).loc b))

/-- The four input blocks at a point and the three arrays they are cut from, each at its literal type: the row
    block and the column block of the scaled rows, the row block of the labels held as a column, the column block
    of the labels held as a row. -/
abbrev rowBlk (c : Dev nD) (t : Fin cfg1.N) : Vec F S1024x512 .bf16 := Fr.iblk1 V c 0 t
abbrev colBlk (c : Dev nD) (t : Fin cfg1.N) : Vec F S1024x512 .bf16 := Fr.iblk1 V c 1 t
abbrev rowLabBlk (c : Dev nD) (t : Fin cfg1.N) : Vec F S1024x1 .i32 := Fr.iblk1 V c 2 t
abbrev colLabBlk (c : Dev nD) (t : Fin cfg1.N) : Vec F S1x1024 .i32 := Fr.iblk1 V c 3 t
abbrev rowsArr (c : Dev nD) : Vec F S8192x512 .bf16 := V c main_v0
abbrev labColArr (c : Dev nD) : Vec F S8192x1 .i32 := V c main_v1
abbrev labRowArr (c : Dev nD) : Vec F S1x8192 .i32 := V c main_v2

/-- Point t of the 8 × 8 grid is the block (t / 8, t % 8), and each window's index map picks the block its
    coordinate names — decided once over the 64 points. -/
theorem idx_facts1 : ∀ t : Fin cfg1.N,
    ((grid1.coords t) 0).val = t.val / 8 ∧ ((grid1.coords t) 1).val = t.val % 8
    ∧ win1_0.index t 0 = t.val / 8 ∧ win1_0.index t 1 = 0
    ∧ win1_1.index t 0 = t.val % 8 ∧ win1_1.index t 1 = 0
    ∧ win1_2.index t 0 = t.val / 8 ∧ win1_2.index t 1 = 0
    ∧ win1_3.index t 0 = 0 ∧ win1_3.index t 1 = t.val % 8 :=
  (by decide +kernel : ∀ t : Fin grid1.N,
    ((grid1.coords t) 0).val = t.val / 8 ∧ ((grid1.coords t) 1).val = t.val % 8
    ∧ win1_0.index t 0 = t.val / 8 ∧ win1_0.index t 1 = 0
    ∧ win1_1.index t 0 = t.val % 8 ∧ win1_1.index t 1 = 0
    ∧ win1_2.index t 0 = t.val / 8 ∧ win1_2.index t 1 = 0
    ∧ win1_3.index t 0 = 0 ∧ win1_3.index t 1 = t.val % 8)

/-- Row p of the row block is row 1024 · (t / 8) + p of the scaled rows. -/
theorem rowBlk_apply (c : Dev nD) (t : Fin cfg1.N) (p : Fin 1024) (k : Fin 512) (r : Fin 8192)
    (hr : r.val = 1024 * (t.val / 8) + p.val) :
    rowBlk V c t (ix2 p k) = rowsArr V c (ix2 r k) := by
  unfold rowBlk rowsArr Fr.iblk1
  rw [View.read_apply]
  show V c main_v0 _ = V c main_v0 _
  congr 1
  funext a
  apply Fin.ext
  match a with
  | ⟨0, _⟩ => show win1_0.index t 0 * 1024 + 1 * p.val = r.val; rw [(idx_facts1 t).2.2.1, hr]; omega
  | ⟨1, _⟩ => show win1_0.index t 1 * 512 + 1 * k.val = k.val; rw [(idx_facts1 t).2.2.2.1]; omega

/-- Row q of the column block is row 1024 · (t % 8) + q of the scaled rows. -/
theorem colBlk_apply (c : Dev nD) (t : Fin cfg1.N) (q : Fin 1024) (k : Fin 512) (r : Fin 8192)
    (hr : r.val = 1024 * (t.val % 8) + q.val) :
    colBlk V c t (ix2 q k) = rowsArr V c (ix2 r k) := by
  unfold colBlk rowsArr Fr.iblk1
  rw [View.read_apply]
  show V c main_v0 _ = V c main_v0 _
  congr 1
  funext a
  apply Fin.ext
  match a with
  | ⟨0, _⟩ => show win1_1.index t 0 * 1024 + 1 * q.val = r.val; rw [(idx_facts1 t).2.2.2.2.1, hr]; omega
  | ⟨1, _⟩ => show win1_1.index t 1 * 512 + 1 * k.val = k.val; rw [(idx_facts1 t).2.2.2.2.2.1]; omega

/-- Entry p of the labels' row block is label 1024 · (t / 8) + p, read off the column-shaped copy. -/
theorem rowLabBlk_apply (c : Dev nD) (t : Fin cfg1.N) (p : Fin 1024) (r : Fin 8192)
    (hr : r.val = 1024 * (t.val / 8) + p.val) :
    rowLabBlk V c t (ix2 p 0) = labColArr V c (ix2 r 0) := by
  unfold rowLabBlk labColArr Fr.iblk1
  rw [View.read_apply]
  show V c main_v1 _ = V c main_v1 _
  congr 1
  funext a
  apply Fin.ext
  match a with
  | ⟨0, _⟩ => show win1_2.index t 0 * 1024 + 1 * p.val = r.val; rw [(idx_facts1 t).2.2.2.2.2.2.1, hr]; omega
  | ⟨1, _⟩ => show win1_2.index t 1 * 1 + 1 * 0 = 0; rw [(idx_facts1 t).2.2.2.2.2.2.2.1]

/-- Entry q of the labels' column block is label 1024 · (t % 8) + q, read off the row-shaped copy. -/
theorem colLabBlk_apply (c : Dev nD) (t : Fin cfg1.N) (q : Fin 1024) (r : Fin 8192)
    (hr : r.val = 1024 * (t.val % 8) + q.val) :
    colLabBlk V c t (ix2 0 q) = labRowArr V c (ix2 0 r) := by
  unfold colLabBlk labRowArr Fr.iblk1
  rw [View.read_apply]
  show V c main_v2 _ = V c main_v2 _
  congr 1
  funext a
  apply Fin.ext
  match a with
  | ⟨0, _⟩ => show win1_3.index t 0 * 1 + 1 * 0 = 0; rw [(idx_facts1 t).2.2.2.2.2.2.2.2.1]
  | ⟨1, _⟩ => show win1_3.index t 1 * 1024 + 1 * q.val = r.val; rw [(idx_facts1 t).2.2.2.2.2.2.2.2.2, hr]; omega

/-! ## One point's contribution -/

/-- One entry of the block: with the blocks' rows and labels named as rows r and cc of the whole arrays, the
    body's entry (p, q) is the pair term of (r, cc). The diagonal test compares the two global row numbers. -/
theorem entry_eq (i : grid1.Coords) (x0 x1 : Vec Ideal S1024x512 .bf16) (x2 : Vec Ideal S1024x1 .i32)
    (x3 : Vec Ideal S1x1024 .i32) (p q : Fin 1024) (e : Fin 8192 → Fin 512 → EReal) (lab : Fin 8192 → BitVec 32)
    (r cc : Fin 8192) (hr : r.val = 1024 * (i 0).val + p.val) (hc : cc.val = 1024 * (i 1).val + q.val)
    (h0 : ∀ k : Fin 512, x0 (ix2 p k) = e r k) (h1 : ∀ k : Fin 512, x1 (ix2 q k) = e cc k)
    (h2 : x2 (ix2 p 0) = lab r) (h3 : x3 (ix2 0 q) = lab cc) :
    (k1_pay6 (F := Ideal) x0 x1 x2 x3 (ix2 p q)
        + k1_pay5 (F := Ideal) x2 x3 (ix2 p q)
          * (max (k1_pay7 (F := Ideal) x0 x1 (ix2 p q)) Cert.Spec.zero * max (k1_pay7 (F := Ideal) x0 x1 (ix2 p q)) Cert.Spec.zero))
      * (Cert.Spec.one - k1_pay4 (F := Ideal) i (ix2 p q))
      = Cert.Spec.pairTerm e lab r cc := by
  have hs : k1_pay3 (F := Ideal) x0 x1 (ix2 p q) = Cert.Spec.sim e r cc := by
    rw [pay3_apply]
    unfold Cert.Spec.sim
    exact Finset.sum_congr rfl fun k _ => by rw [h0 k, h1 k]
  have hd : k1_pay5 (F := Ideal) x2 x3 (ix2 p q) = Cert.Spec.differ lab r cc := by
    rw [pay5_apply, h2, h3]
    rfl
  have hg : k1_pay4 (F := Ideal) i (ix2 p q) = Cert.Spec.onDiag r cc := by
    rw [pay4_apply]
    unfold Cert.Spec.onDiag
    have hiff : (1024 * (i 0).val + p.val = 1024 * (i 1).val + q.val) ↔ r = cc := by
      rw [Fin.ext_iff, hr, hc]
    by_cases h : r = cc
    · rw [if_pos (hiff.mpr h), if_pos h]
    · rw [if_neg (fun h' => h (hiff.mp h')), if_neg h]
  rw [pay6_apply, pay7_apply, hs, hd, hg]
  rfl

section AtIdeal

variable (W : (c : Dev nD) → (b : Ref sig .tc) → Buf (Elt Ideal) ((c : Thread nD τ).loc b))

/-- The scaled rows and the labels as the region finds them, as functions of the row number. -/
abbrev rowsOf (c : Dev nD) : Fin 8192 → Fin 512 → EReal := fun r k => rowsArr (F := Ideal) W c (ix2 r k)
abbrev labsOf (c : Dev nD) : Fin 8192 → BitVec 32 := fun r => labColArr (F := Ideal) W c (ix2 r 0)

/-- A grid point's block row and block column are below 8. -/
theorem div_lt1 (t : Fin cfg1.N) : t.val / 8 < 8 := by
  have h1 := t.isLt; have h2 : cfg1.N = 64 := N_1; omega
theorem mod_lt1 (t : Fin cfg1.N) : t.val % 8 < 8 := by omega

/-- One point's contribution: over the accumulator's contents `prev`, the body at point t leaves `prev` plus the
    sum of the pair terms of the block (t / 8, t % 8) — its 1024² entries are the pair terms of the rows
    1024 · (t / 8) + p and 1024 · (t % 8) + q; the two copies of the labels hold the same labels. -/
theorem point_eq (c : Dev nD) (hlab : ∀ r : Fin 8192, labRowArr (F := Ideal) W c (ix2 0 r) = labColArr (F := Ideal) W c (ix2 r 0))
    (t : Fin cfg1.N) (prev : Vec Ideal S1x1 .f32) (y : S1x1.Idx) :
    k1_pay1 (F := Ideal) (k1_pay4 (grid1.coords t)) (k1_pay5 (rowLabBlk W c t) (colLabBlk W c t))
        (k1_pay6 (rowBlk W c t) (colBlk W c t) (rowLabBlk W c t) (colLabBlk W c t))
        (k1_pay7 (rowBlk W c t) (colBlk W c t)) prev y
      = prev y + Cert.Spec.blockSum (rowsOf W c) (labsOf W c) ⟨t.val / 8, div_lt1 t⟩ ⟨t.val % 8, mod_lt1 t⟩ := by
  refine (pay1_eq _ _ _ _ prev y).trans ?_
  refine congrArg (prev y + ·) ?_
  unfold Cert.Spec.blockSum
  refine Finset.sum_congr rfl fun p _ => Finset.sum_congr rfl fun q _ => ?_
  refine entry_eq (grid1.coords t) (rowBlk W c t) (colBlk W c t) (rowLabBlk W c t) (colLabBlk W c t) p q
    (rowsOf W c) (labsOf W c) (Cert.Spec.blockRow ⟨t.val / 8, div_lt1 t⟩ p) (Cert.Spec.blockRow ⟨t.val % 8, mod_lt1 t⟩ q)
    ?_ ?_ ?_ ?_ ?_ ?_
  · show 1024 * (t.val / 8) + p.val = 1024 * ((grid1.coords t) 0).val + p.val
    rw [(idx_facts1 t).1]
  · show 1024 * (t.val % 8) + q.val = 1024 * ((grid1.coords t) 1).val + q.val
    rw [(idx_facts1 t).2.1]
  · exact fun k => rowBlk_apply W c t p k _ rfl
  · exact fun k => colBlk_apply W c t q k _ rfl
  · exact rowLabBlk_apply W c t p _ rfl
  · exact (colLabBlk_apply W c t q _ rfl).trans (hlab _)

/-! ## The accumulation -/

/-- The zero the first point stores, at its one entry. -/
theorem pay2_apply (y : S1x1.Idx) : k1_pay2 (F := Ideal) y = Cert.Spec.zero := rfl

/-- After the body at point n the accumulator holds the sum of the first n + 1 block sums: the first point adds
    its block sum to the zero it stored, every later point adds its block sum to what the point before left. -/
theorem outsAt1_eq (c : Dev nD) (hlab : ∀ r : Fin 8192, labRowArr (F := Ideal) W c (ix2 0 r) = labColArr (F := Ideal) W c (ix2 r 0)) :
    ∀ (n : ℕ) (hn : n < cfg1.N) (y : S1x1.Idx),
      Fr.outsAt1 (F := Ideal) W c n hn y = Cert.Spec.accBlocks (rowsOf W c) (labsOf W c) (n + 1)
  | 0, hn, y => by
    refine (congrFun (Fr.outsAt1_A W c ⟨0, hn⟩ rfl) y).trans ?_
    refine (congrFun (out1_A_4_eq (F := Ideal) c (grid1.coords ⟨0, hn⟩) (Fr.ms1_0 ⟨0, hn⟩) (Fr.hs1_0 ⟨0, hn⟩)
      (Fr.ms1_1 ⟨0, hn⟩) (Fr.hs1_1 ⟨0, hn⟩) (Fr.ms1_2 ⟨0, hn⟩) (Fr.hs1_2 ⟨0, hn⟩) (Fr.ms1_3 ⟨0, hn⟩) (Fr.hs1_3 ⟨0, hn⟩)
      (Fr.ms1_4 ⟨0, hn⟩) (Fr.hs1_4 ⟨0, hn⟩) ((Fr.hcond1_0 ⟨0, hn⟩).mpr rfl)
      (rowBlk W c ⟨0, hn⟩) (colBlk W c ⟨0, hn⟩) (rowLabBlk W c ⟨0, hn⟩) (colLabBlk W c ⟨0, hn⟩)) y).trans ?_
    refine (point_eq W c hlab ⟨0, hn⟩ (k1_pay2 (F := Ideal)) y).trans ?_
    rw [pay2_apply, Cert.Spec.accBlocks_succ _ _ 0 (by omega), Cert.Spec.accBlocks_zero]
    show Ideal.ofBits .f32 0x00000000#32 + _ = 0 + _
    rw [Ideal.ofBits_zero_f32]
  | n + 1, hn, y => by
    have hN : cfg1.N = 64 := N_1
    have hB : ¬(⟨n + 1, hn⟩ : Fin cfg1.N).val % 64 = 0 := by dsimp only; omega
    refine (congrFun (Fr.outsAt1_B W c ⟨n + 1, hn⟩ hB) y).trans ?_
    refine (congrFun (out1_B_4_eq (F := Ideal) c (grid1.coords ⟨n + 1, hn⟩) (Fr.ms1_0 ⟨n + 1, hn⟩) (Fr.hs1_0 ⟨n + 1, hn⟩)
      (Fr.ms1_1 ⟨n + 1, hn⟩) (Fr.hs1_1 ⟨n + 1, hn⟩) (Fr.ms1_2 ⟨n + 1, hn⟩) (Fr.hs1_2 ⟨n + 1, hn⟩) (Fr.ms1_3 ⟨n + 1, hn⟩) (Fr.hs1_3 ⟨n + 1, hn⟩)
      (Fr.ms1_4 ⟨n + 1, hn⟩) (Fr.hs1_4 ⟨n + 1, hn⟩) (fun h => hB ((Fr.hcond1_0 ⟨n + 1, hn⟩).mp h))
      (rowBlk W c ⟨n + 1, hn⟩) (colBlk W c ⟨n + 1, hn⟩) (rowLabBlk W c ⟨n + 1, hn⟩) (colLabBlk W c ⟨n + 1, hn⟩)
      (Fr.outsAt1 W c n (Nat.lt_of_succ_lt hn))) y).trans ?_
    refine (point_eq W c hlab ⟨n + 1, hn⟩ (Fr.outsAt1 W c n (Nat.lt_of_succ_lt hn)) y).trans ?_
    rw [outsAt1_eq c hlab n (Nat.lt_of_succ_lt hn) y, Cert.Spec.accBlocks_succ _ _ (n + 1) (by omega)]

/-! ## The result array -/

/-- The result's index map is constant: its one block sits at (0, 0) at every point. -/
theorem idx4_zero : ∀ (t : Fin cfg1.N) (a : Fin 2), win1_4.index t a = 0 :=
  (by decide +kernel : ∀ (t : Fin grid1.N) (a : Fin 2), win1_4.index t a = 0)

/-- The last grid point. -/
abbrev lastPt : Fin cfg1.N := ⟨63, by rw [show cfg1.N = 64 from N_1]; decide⟩

/-- The 1 × 1 result array is written back once, after the last point, and its one block is the whole array: it
    ends holding the sum of the 64 block sums. -/
theorem final1 (c : Dev nD) (hlab : ∀ r : Fin 8192, labRowArr (F := Ideal) W c (ix2 0 r) = labColArr (F := Ideal) W c (ix2 r 0)) :
    (Fr.dat1 (F := Ideal) W c).arrAt 4 cfg1.N = fun _ => Cert.Spec.accBlocks (rowsOf W c) (labsOf W c) 64 := by
  have hN : cfg1.N = 64 := N_1
  refine (Fr.dat1 (F := Ideal) W c).arrAt_eq_of_cover 4 (fun _ => Cert.Spec.accBlocks (rowsOf W c) (labsOf W c) 64) ?_ ?_
  · intro t hf
    have h63 : t.val = 63 := by have := (flush1_4 t).mp hf; have := t.isLt; omega
    show (cfg1.win 4).cut (grid1.coords t) ((Fr.dat1 (F := Ideal) W c).after 4 t) = _
    rw [Fr.after1_4]
    have hacc : Fr.outsAt1 (F := Ideal) W c t.val t.isLt = fun _ => Cert.Spec.accBlocks (rowsOf W c) (labsOf W c) 64 :=
      funext fun y => by rw [outsAt1_eq W c hlab t.val t.isLt y, h63]
    rw [hacc]
    have hz' : (fun a => win1_4.index t a * main_v3.ty.shape.size a) = fun _ => 0 :=
      funext fun a => by rw [idx4_zero t a, Nat.zero_mul]
    exact (Memref.read_access_unit_zero (Elt Ideal) main_v3 hz' (fun a => by rw [congrFun hz' a]; simp)
      (fun _ => Cert.Spec.accBlocks (rowsOf W c) (labsOf W c) 64)).symm
  · intro i
    refine ⟨lastPt, (flush1_4 lastPt).mpr rfl, ?_⟩
    show i ∈ ((View.whole main_v3).slice (win1_4.rect lastPt)).set
    rw [View.set_slice_whole, Rect.mem_set_unit]
    intro a
    have h0 : (i 0 : Nat) < 1 := (i 0).isLt
    have h1 : (i 1 : Nat) < 1 := (i 1).isLt
    match a with
    | ⟨0, _⟩ =>
      show win1_4.index lastPt 0 * win1_4.size 0 ≤ (i 0 : Nat) ∧ (i 0 : Nat) < win1_4.index lastPt 0 * win1_4.size 0 + win1_4.xsize (grid1.coords lastPt) 0
      rw [idx4_zero lastPt 0, show win1_4.xsize (grid1.coords lastPt) 0 = 1 from by decide +kernel]; omega
    | ⟨1, _⟩ =>
      show win1_4.index lastPt 1 * win1_4.size 1 ≤ (i 1 : Nat) ∧ (i 1 : Nat) < win1_4.index lastPt 1 * win1_4.size 1 + win1_4.xsize (grid1.coords lastPt) 1
      rw [idx4_zero lastPt 1, show win1_4.xsize (grid1.coords lastPt) 1 = 1 from by decide +kernel]; omega

end AtIdeal

end Cert.KernelIdeal.Val
end
-- ==== Proof.KI.ValueMain.lean ====
/-
  The kernel program's result buffer at the end of @main is the specification's loss.

  The first region leaves the scaled rows in one buffer; two host reshapes then present the labels as a column
  and as a row (each reads, at its index, the label of the one row that index names); the second region, entered
  at those contents, leaves the 64 accumulated block sums of the pair terms, which is the one sweep over all
  pairs regrouped; the host tail drops the two unit axes of that one number and divides it by the number of
  ordered pairs of distinct rows.
-/
import proofs.«162011_j26087631356709_1_alg».proof.Proof.KI.Seg0
import proofs.«162011_j26087631356709_1_alg».proof.Proof.KI.Value0
import proofs.«162011_j26087631356709_1_alg».proof.Proof.KI.Value1
import proofs.«162011_j26087631356709_1_alg».proof.Proof.Spec
import proofs.«162011_j26087631356709_1_alg».proof.Proof.SpecBlocks
import Idealize.ShloMosaic.Lib.ValueLayout
import Idealize.ShloMosaic.Lib.StableHlo.Run

noncomputable section

namespace Cert.KernelIdeal.Val

open Cert.KernelIdeal Cert.KernelIdeal.Gen Cert.KernelIdeal.Fr Idealize.ShloMosaic Idealize.ShloMosaic.TcCoe
  Idealize.SL.Sem Idealize.ShloMosaic.ValueIdx Idealize.ShloMosaic.StableHlo

variable (m : (ℓ : Loc nD τ sig) → Buf (Elt Ideal) ℓ) (c : Dev nD)

/-! ## The contents the second region is entered at -/

/-- The labels are untouched by the first region. -/
theorem entry_arg1 : W1 m c (Proc.devRef .tc main_arg1) = m ((c.tc : Thread nD τ).loc main_arg1) := by
  show Function.update (V0 m c) (Proc.devRef .tc main_v0 : DevRef τ sig) (o1 m c) (Proc.devRef .tc main_arg1) = _
  rw [Function.update_of_ne (StableHlo.devRef_ne_of_ne (by decide))]

/-- The labels as a column: the first reshape. -/
theorem entry_v1 : VR2 m c main_v1
    = fun i => shapeCast S8192x1 (m ((c.tc : Thread nD τ).loc main_arg1)) shapeCasts_S8192_S8192x1 i := by
  show StableHlo.after hostOps1 (W1 m c) (Proc.devRef .tc main_v1) = _
  after_results
  rw [entry_arg1]
  rfl

/-- The labels as a row: the second reshape. -/
theorem entry_v2 : VR2 m c main_v2
    = fun i => shapeCast S1x8192 (m ((c.tc : Thread nD τ).loc main_arg1)) shapeCasts_S8192_S1x8192 i := by
  show StableHlo.after hostOps1 (W1 m c) (Proc.devRef .tc main_v2) = _
  after_results
  rw [entry_arg1]
  rfl

/-- An array of n entries cast to a column reads, at (i, u), the entry i, whatever the unit coordinate u. -/
theorem shapeCast_col_apply {α : Type} (x : (⟨1, ![8192]⟩ : Shape).Idx → α)
    (h : (⟨1, ![8192]⟩ : Shape).ShapeCasts ⟨2, ![8192, 1]⟩) (i : Fin 8192) (u : Fin 1) :
    shapeCast ⟨2, ![8192, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column of labels at row r is the label of r. -/
theorem entry_v1_apply (r : Fin 8192) :
    VR2 m c main_v1 (ix2 r (0 : Fin 1)) = m ((c.tc : Thread nD τ).loc main_arg1) (ix1 r) := by
  rw [entry_v1]
  exact shapeCast_col_apply _ _ r 0

/-- The row of labels at column r is the label of r. -/
theorem entry_v2_apply (r : Fin 8192) :
    VR2 m c main_v2 (ix2 (0 : Fin 1) r) = m ((c.tc : Thread nD τ).loc main_arg1) (ix1 r) := by
  rw [entry_v2]
  exact shapeCast_a_1a_apply _ _ 0 r

/-- The scaled rows the first region leaves are what the second region reads. -/
theorem entry_v0 : VR2 m c main_v0 = o1 m c := by
  show StableHlo.after hostOps1 (W1 m c) (Proc.devRef .tc main_v0) = _
  rw [StableHlo.after_of_writes_sub hostOps1 _ hostOps1_writes (by decide)]
  show Function.update (V0 m c) (Proc.devRef .tc main_v0 : DevRef τ sig) (o1 m c) (Proc.devRef .tc main_v0) = _
  rw [Function.update_self]

/-- An entry of the scaled rows. -/
theorem entry_v0_apply (r : Fin 8192) (k : Fin 512) :
    VR2 m c main_v0 (ix2 r k)
      = Cert.Spec.unitRows (fun r k => m ((c.tc : Thread nD τ).loc main_arg0) (ix2 r k)) r k := by
  rw [entry_v0]
  unfold o1
  rw [final0]
  rfl

/-! ## What the second region leaves, and the host tail -/

/-- The accumulated sum the second region leaves, at its one index: the one sweep over the scaled rows. -/
theorem region1_out : o3 m c = fun _ => Cert.Spec.total
    (Cert.Spec.unitRows (fun r k => m ((c.tc : Thread nD τ).loc main_arg0) (ix2 r k)))
    (fun r => m ((c.tc : Thread nD τ).loc main_arg1) (ix1 r)) := by
  unfold o3
  rw [final1 (VR2 m) c (fun r => (entry_v2_apply m c r).trans (entry_v1_apply m c r).symm)]
  funext _
  rw [Cert.Spec.total_eq_blocks]
  congr 1
  · funext r k; exact entry_v0_apply m c r k
  · funext r; exact entry_v1_apply m c r

/-- The program's result buffer at the end of @main. -/
theorem result_eq :
    V4 m (Cert.KernelIdeal.Fr.outs m) c main_v5
      = fun _ => Cert.Spec.loss (fun r k => m ((c.tc : Thread nD τ).loc main_arg0) (ValueIdx.ix2 r k))
          (fun r => m ((c.tc : Thread nD τ).loc main_arg1) (ValueIdx.ix1 r)) := by
  show StableHlo.after hostOps2 (V3 m (outs m) c) (Proc.devRef .tc main_v5) = _
  after_results
  have hv3 : V3 m (outs m) c (Proc.devRef .tc main_v3) = o3 m c := by
    show Function.update (V2 m (outs m) c) (Proc.devRef .tc main_v3 : DevRef τ sig) (outs m 3 main_v3 c)
      (Proc.devRef .tc main_v3) = _
    rw [Function.update_self, outs_v3]
  rw [hv3, region1_out]
  funext i
  rfl

end Cert.KernelIdeal.Val
end
-- ==== Proof.RefValue.lean ====
/-
  The one-sweep program's result is the specification's loss.

  The program's result is read one operation at a time, outermost first: the final quotient; the sum over all pairs
  of rows (its initial zero removed, the sum over a pair index split into the two sums over its coordinates); the
  pair's term (a chain of pointwise operations); the inner product of two scaled rows (a contraction over the 512
  columns, the second operand a transpose of the first); the scaled rows (each entry divided by its row's floored
  norm, the norm a square root of a sum of squares over the 512 columns); the two indicators (a comparison of two
  labels, and a comparison of the two coordinates of the pair, each converted to the real 1 or 0).
-/
import proofs.«162011_j26087631356709_1_alg».proof.Proof.Gen.ReferenceIdeal.Read
import proofs.«162011_j26087631356709_1_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.ValueIdx

/-- The array argument read by its two coordinates. -/
abbrev rows (x0 : (⟨S8192x512, .f32⟩ : BufTy).Contents (Elt Ideal)) : Fin 8192 → Fin 512 → EReal :=
  fun r k => x0 (ix2 r k)

/-- The label argument read by its coordinate. -/
abbrev labels (x1 : (⟨S8192, .i32⟩ : BufTy).Contents (Elt Ideal)) : Fin 8192 → BitVec 32 :=
  fun r => x1 (ix1 r)

/-! ## The index maps of the layout operations, at coordinates -/

theorem idx_sumsq (r : Fin 8192) (k : Fin 512) :
    idx_main_call0_v1 (idx_main_call0_v2 (ix2 r (0 : Fin 1))) k = ix2 r k :=
  funext fun a => Fin.ext (by match a with | ⟨0, _⟩ => rfl | ⟨1, _⟩ => rfl)

theorem idx_norm (r : Fin 8192) (k : Fin 512) : idx_main_v3 (ix2 r k) = ix2 r (0 : Fin 1) :=
  funext fun a => Fin.ext (by match a with | ⟨0, _⟩ => rfl | ⟨1, _⟩ => rfl)

theorem idx_left (r c : Fin 8192) (k : Fin 512) : lidx_main_v6 (ix2 r c) k = ix2 r k :=
  funext fun a => Fin.ext (by match a with | ⟨0, _⟩ => rfl | ⟨1, _⟩ => rfl)

theorem idx_right (r c : Fin 8192) (k : Fin 512) : idx_main_v5 (ridx_main_v6 (ix2 r c) k) = ix2 c k :=
  funext fun a => Fin.ext (by match a with | ⟨0, _⟩ => rfl | ⟨1, _⟩ => rfl)

theorem idx_label_col (r c : Fin 8192) : idx_main_v7 (idx_main_v9 (ix2 r c)) = ix1 c :=
  funext fun a => Fin.ext (by match a with | ⟨0, _⟩ => rfl)

theorem idx_label_row (r c : Fin 8192) : idx_main_v8 (idx_main_v10 (ix2 r c)) = ix1 r :=
  funext fun a => Fin.ext (by match a with | ⟨0, _⟩ => rfl)

/-! ## The scaled rows -/

/-- The floored norm of row r: the square root of the row's sum of squares (the sum's initial zero removed), floored. -/
theorem norm_apply (x0 : (⟨S8192x512, .f32⟩ : BufTy).Contents (Elt Ideal)) (r : Fin 8192) :
    val_main_v2 (F := Ideal) x0 (ix2 r (0 : Fin 1)) = Cert.Spec.rowNorm (rows x0) r := by
  rw [val_main_v2_apply, val_main_v0_apply, val_main_call0_v2_apply, val_main_call0_v1_apply, val_main_v1_apply,
    val_main_cst_apply, val_main_call0_cst_apply]
  simp only [val_main_call0_v0_apply, idx_sumsq, Ideal.ofBits_def, Ideal.mulf_def, Ideal.maximumf_def,
    Ideal.hostUnary_sqrt_def, Ideal.ofBits_zero_f32, zero_add]
  rfl

/-- An entry of the scaled array: the entry divided by its row's floored norm. -/
theorem unit_apply (x0 : (⟨S8192x512, .f32⟩ : BufTy).Contents (Elt Ideal)) (r : Fin 8192) (k : Fin 512) :
    val_main_v4 (F := Ideal) x0 (ix2 r k) = Cert.Spec.unitRows (rows x0) r k := by
  rw [val_main_v4_apply, val_main_v3_apply, idx_norm, norm_apply, Ideal.hostDivf_def]
  rfl

/-! ## The similarity of two rows -/

/-- The contraction over the 512 columns of the scaled array with its transpose. -/
theorem sim_apply (x0 : (⟨S8192x512, .f32⟩ : BufTy).Contents (Elt Ideal)) (r c : Fin 8192) :
    val_main_v6 (F := Ideal) x0 (ix2 r c) = Cert.Spec.sim (Cert.Spec.unitRows (rows x0)) r c := by
  rw [val_main_v6_apply]
  unfold Cert.Spec.sim
  refine Finset.sum_congr rfl fun k _ => ?_
  rw [val_main_v5_apply, idx_left, idx_right, unit_apply, unit_apply]

/-! ## The two indicators -/

/-- A one-bit word converted to a float is the real 1 when the bit is set and the real 0 when it is clear. -/
theorem uitofp_bit (b : Bool) :
    FloatOps.uitofp (F := Ideal) .f32 (BitVec.ofBool b) = if b = true then ((1 : ℝ) : EReal) else ((0 : ℝ) : EReal) := by
  cases b
  · show (((0 : ℕ) : ℝ) : EReal) = _
    simp
  · show (((1 : ℕ) : ℝ) : EReal) = _
    simp

/-- The comparison "not equal" of two words is the bit of their disequality. -/
theorem cmpi_ne_bit (a b : BitVec 32) : IntOp.cmpi .ne a b = BitVec.ofBool (a != b) := rfl

/-- The comparison "equal" of two words is the bit of their equality. -/
theorem cmpi_eq_bit (a b : BitVec 32) : IntOp.cmpi .eq a b = BitVec.ofBool (a == b) := rfl

/-- The label indicator of the pair (r, c): the label of column c against the label of row r. -/
theorem differ_apply (x1 : (⟨S8192, .i32⟩ : BufTy).Contents (Elt Ideal)) (r c : Fin 8192) :
    val_main_v12 (F := Ideal) x1 (ix2 r c) = Cert.Spec.differ (labels x1) r c := by
  rw [val_main_v12_apply, val_main_v11_apply, val_main_v9_apply, val_main_v7_apply, val_main_v10_apply,
    val_main_v8_apply, idx_label_col, idx_label_row, cmpi_ne_bit, uitofp_bit]
  unfold Cert.Spec.differ
  exact if_congr (by rw [bne_iff_ne]; exact ne_comm) rfl rfl

/-- Two row numbers below 8192 are the same 32-bit word exactly when they are the same number. -/
theorem word_eq_iff (r c : Fin 8192) : BitVec.ofNat 32 r.val = BitVec.ofNat 32 c.val ↔ r = c := by
  constructor
  · intro h
    have h' := congrArg BitVec.toNat h
    simp only [BitVec.toNat_ofNat] at h'
    have hr := r.isLt
    have hc := c.isLt
    exact Fin.ext (by omega)
  · rintro rfl; rfl

/-- The diagonal indicator of the pair (r, c): the row number (plus the zero word) against the column number. -/
theorem onDiag_apply (r c : Fin 8192) :
    val_main_v31 (F := Ideal) (ix2 r c) = Cert.Spec.onDiag r c := by
  rw [val_main_v31_apply, val_main_v30_apply, val_main_v29_apply, val_main_v26_apply, val_main_v28_apply,
    val_main_c_apply, val_main_v27_apply, cmpi_eq_bit, uitofp_bit]
  unfold Cert.Spec.onDiag
  refine if_congr ?_ rfl rfl
  show ((BitVec.ofNat 32 r.val + 0#32 == BitVec.ofNat 32 c.val) = true) ↔ r = c
  rw [beq_iff_eq, BitVec.add_zero]
  exact word_eq_iff r c

/-! ## The term of a pair, the sum over all pairs, the result -/

/-- The term of the ordered pair (r, c): the pointwise chain over the similarity and the two indicators. -/
theorem pair_apply (x0 : (⟨S8192x512, .f32⟩ : BufTy).Contents (Elt Ideal))
    (x1 : (⟨S8192, .i32⟩ : BufTy).Contents (Elt Ideal)) (r c : Fin 8192) :
    val_main_v34 (F := Ideal) x0 x1 (ix2 r c)
      = Cert.Spec.pairTerm (Cert.Spec.unitRows (rows x0)) (labels x1) r c := by
  simp only [val_main_v34_apply, val_main_v25_apply, val_main_v18_apply, val_main_v14_apply, val_main_v13_apply,
    val_main_cst_0_apply, val_main_v17_apply, val_main_v16_apply, val_main_v15_apply, val_main_cst_1_apply,
    val_main_v24_apply, val_main_v23_apply, val_main_v22_apply, val_main_v20_apply, val_main_v19_apply,
    val_main_cst_2_apply, val_main_v21_apply, val_main_cst_3_apply, val_main_v33_apply, val_main_v32_apply,
    val_main_cst_4_apply, sim_apply, differ_apply, onDiag_apply, Ideal.ofBits_def, Ideal.mulf_def, Ideal.addf_def,
    Ideal.subf_def, Ideal.maximumf_def]
  rfl

/-- The sum over all pairs: the initial zero removed, the sum over the pair index split into rows and columns. -/
theorem total_apply (x0 : (⟨S8192x512, .f32⟩ : BufTy).Contents (Elt Ideal))
    (x1 : (⟨S8192, .i32⟩ : BufTy).Contents (Elt Ideal)) (i : S_.Idx) :
    val_main_v35 (F := Ideal) x0 x1 i = Cert.Spec.total (Cert.Spec.unitRows (rows x0)) (labels x1) := by
  rw [val_main_v35_apply, val_main_cst_5_apply, Ideal.ofBits_def, Ideal.ofBits_zero_f32, zero_add, sum_idx2]
  unfold Cert.Spec.total
  exact Finset.sum_congr rfl fun r _ => Finset.sum_congr rfl fun c _ => pair_apply x0 x1 r c

/-- The program's result, at its one index, is the loss of the two arguments read by coordinates. -/
theorem result_eq (m : (ℓ : Loc nD τ sig) → Buf (Elt Ideal) ℓ) (c : Dev nD) :
    Cert.ReferenceIdeal.Value.res_out0 (F := Ideal) m c
      = fun _ => Cert.Spec.loss (fun r k => m ((c.tc : Thread nD τ).loc main_arg0) (ix2 r k))
          (fun r => m ((c.tc : Thread nD τ).loc main_arg1) (ix1 r)) := by
  funext i
  refine (congrFun (val_main_v36_eq (F := Ideal) m c) i).trans ?_
  rw [val_main_v36_apply, total_apply, val_main_cst_6_apply, Ideal.hostDivf_def, Ideal.ofBits_def]
  rfl

end Cert.RefValue

end
-- ==== Proof.lean ====
/-
  The certificate's claims assembled.

  Both printed kernel programs (the word-level one and its idealization, the same text) are two pipelined regions
  among a few host operations: the rows of the input are scaled to unit length, then an 8 × 8 grid of 1024 × 1024
  blocks of pairwise terms is summed block by block into a 1 × 1 accumulator, and the total is divided by the
  number of ordered pairs. Their frames (termination, no fault, arguments unchanged) come from one segment record
  per region. The reference is one host program; its frame is its run with the result dropped. No rewrite was
  applied by the idealization, so the preservation claim is trivial. For the value claim both results are shown to
  be the one function `Cert.Spec.loss` of the arguments: the reference adds all 8192² pair terms in one sweep, the
  kernel adds them block by block, and a sum of extended reals does not depend on the grouping.
-/
import proofs.«162011_j26087631356709_1_alg».proof.Defs
import proofs.«162011_j26087631356709_1_alg».proof.Proof.Gen.Kernel
import proofs.«162011_j26087631356709_1_alg».proof.Proof.Gen.KernelIdeal
import proofs.«162011_j26087631356709_1_alg».proof.Proof.Gen.ReferenceIdeal
import proofs.«162011_j26087631356709_1_alg».proof.Proof.Gen.Pre_finite_inputs
import proofs.«162011_j26087631356709_1_alg».proof.Proof.Gen.ReferenceIdeal.Run
import proofs.«162011_j26087631356709_1_alg».proof.Proof.K.Frame
import proofs.«162011_j26087631356709_1_alg».proof.Proof.KI.Frame
import proofs.«162011_j26087631356709_1_alg».proof.Proof.KI.RunVal
import proofs.«162011_j26087631356709_1_alg».proof.Proof.KI.ValueMain
import proofs.«162011_j26087631356709_1_alg».proof.Proof.RefValue

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the same result: the loss of the
    argument arrays, as `Cert.Spec.loss` states it. -/
theorem algebraic : Cert.algebraic_KernelIdeal_ReferenceIdeal := by
  intro m ρ m' ρ' _ hagree
  refine ⟨fun c => Cert.KernelIdeal.Gen.V4 m (Cert.KernelIdeal.Fr.outs m) c Cert.KernelIdeal.main_v5,
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.RefValue.result_eq m' c).trans ?_).trans (Cert.KernelIdeal.Val.result_eq m c).symm
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
